-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S32000x4096 : Shape := ⟨2, ![32000, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v8 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v8 main_v17
  main_v18

def fn {F : FTy → Type} [FloatOps F] (main_arg0 : FVec F S4096x4096 .f32) (main_arg1 : FVec F S32000x4096 .f32) (main_arg2 : IVec S4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32000x4096 .f32 := Host.absf main_arg1
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  let main_c_2 : IVec S_ 32 := constantI S_ 32 4294967196#32
  let main_v9 : IVec S4096 32 := broadcastInDim S4096 ![] bcast_S_S4096 main_c_2
  let main_v10 : IVec S4096 1 := cmpi .eq main_arg2 main_v9
  let main_c_3 : IVec S_ 32 := constantI S_ 32 0#32
  let main_v11 : IVec S4096 32 := broadcastInDim S4096 ![] bcast_S_S4096 main_c_3
  let main_v12 : IVec S4096 1 := cmpi .sge main_arg2 main_v11
  let main_c_4 : IVec S_ 32 := constantI S_ 32 32000#32
  let main_v13 : IVec S4096 32 := broadcastInDim S4096 ![] bcast_S_S4096 main_c_4
  let main_v14 : IVec S4096 1 := cmpi .slt main_arg2 main_v13
  let main_v15 : IVec S4096 1 := andi main_v12 main_v14
  let main_v16 : IVec S4096 1 := ori main_v10 main_v15
  fn_part1 (F := F) main_v8 main_v16
-- ==== Kernel.lean ====
abbrev S4096x4096 : Shape := ⟨2, ![4096, 4096]⟩
abbrev S32000x4096 : Shape := ⟨2, ![32000, 4096]⟩
abbrev S4096 : Shape := ⟨1, ![4096]⟩
abbrev S_ : Shape := ⟨0, ![]⟩
abbrev S4096x1 : Shape := ⟨2, ![4096, 1]⟩
abbrev S1024x4096 : Shape := ⟨2, ![1024, 4096]⟩
abbrev S1280x4096 : Shape := ⟨2, ![1280, 4096]⟩
abbrev S1024x1 : Shape := ⟨2, ![1024, 1]⟩
abbrev S1024x1280 : Shape := ⟨2, ![1024, 1280]⟩
abbrev S1024 : Shape := ⟨1, ![1024]⟩

abbrev nBuf : Space → Nat
  | .hbm => 28
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S32000x4096, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x4096, .bf16⟩
  | .hbm, ⟨12, _⟩ => ⟨S32000x4096, .bf16⟩
  | .hbm, ⟨13, _⟩ => ⟨S4096x1, .f32⟩
  | .hbm, ⟨14, _⟩ => ⟨S4096, .f32⟩
  | .hbm, ⟨15, _⟩ => ⟨S4096, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1024x4096, .bf16⟩
  | .local _ .vmem, ⟨1, _⟩ => ⟨S1024x4096, .bf16⟩
  | .local _ .vmem, ⟨2, _⟩ => ⟨S1280x4096, .bf16⟩
  | .local _ .vmem, ⟨3, _⟩ => ⟨S1280x4096, .bf16⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v46 : BitVec 1 := Scalar.cmpi .eq arg1 c24_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S4096 : S_.BroadcastsInDim S4096 (![] : Fin 0 → Fin S4096.rank)
  shapeCasts_S4096_S4096x1 : S4096.ShapeCasts S4096x1
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1280x4096_S1280x4096_0_0 : ∀ a, (![0, 0] : Fin 2 → Nat) a + S1280x4096.size a ≤ S1280x4096.size a
  h_S1280x4096 : 0 < S1280x4096.numel
  shapeCasts_S1280x4096_S1280x4096 : S1280x4096.ShapeCasts S1280x4096
  iota_S1024x1280_d1_w32 : S1024x1280.Iotas .tc 32 [1]
  broadcasts_S1024x1_S1024x1280 : S1024x1.Broadcasts S1024x1280
  reduces_S1024x1280_S1024 : S1024x1280.Reduces [1] S1024
  shapeCasts_S1024_S1024x1 : S1024.ShapeCasts S1024x1
  shapeCasts_S4096x1_S4096 : S4096x1.ShapeCasts S4096
  natLt_1_32 : 1 < 32
  reducesTo_S4096_S_d0 : S4096.ReducesTo [0] S_
  h_S_ : 0 < S_.numel
  dot_S1024x4096_S1280x4096_S1024x1280_1_1_0_0_n_n_wf : DotDims.WF S1024x4096 S1280x4096 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x4096.size a ≤ S32000x4096.size a
  hwx0_1 : ∀ i : grid0.Coords, EltTy.bits .bf16 = 32 ∨ (Rect.block (s := S32000x4096) S1280x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)

variable [Facts₀]

def dot_S1024x4096_S1280x4096_S1024x1280_1_1_0_0_n_n : DotDims S1024x4096 S1280x4096 S1024x1280 where
  lhsContracting := [1]
  rhsContracting := [1]
  lhsNonContracting := [0]
  rhsNonContracting := [0]
  lhsBatch := []
  rhsBatch := []
  wf := dot_S1024x4096_S1280x4096_S1024x1280_1_1_0_0_n_n_wf

abbrev win0_0 : Pipeline.Window sig grid0 :=
  Pipeline.Window.ofSpec (Memref.whole main_v4) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1280x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S32000x4096 : Shape := ⟨2, ![32000, 4096]⟩
abbrev S4096 : Shape := ⟨1, ![4096]⟩
abbrev S4096x32000 : Shape := ⟨2, ![4096, 32000]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S32000x4096, .f32⟩
  | .hbm, ⟨2, _⟩ => ⟨S4096, .i32⟩
  | .hbm, ⟨3, _⟩ => ⟨S4096x32000, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x32000, .f32⟩
  | .hbm, ⟨11, _⟩ => ⟨S4096x32000, .f32⟩
  | .hbm, ⟨12, _⟩ => ⟨S4096x32000, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S4096x32000, .f32⟩
  | .hbm, ⟨18, _⟩ => ⟨S4096x32000, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S_, .i32⟩
  | .hbm, ⟨28, _⟩ => ⟨S4096x1, .i32⟩
  | .hbm, ⟨29, _⟩ => ⟨S4096x1, .i1⟩
  | .hbm, ⟨30, _⟩ => ⟨S_, .i32⟩
  | .hbm, ⟨31, _⟩ => ⟨S4096x1, .i32⟩
  | .hbm, ⟨32, _⟩ => ⟨S4096x1, .i32⟩
  | .hbm, ⟨33, _⟩ => ⟨S4096x1, .i32⟩
  | .hbm, ⟨34, _⟩ => ⟨S4096x1x1, .i32⟩
  | .hbm, ⟨35, _⟩ => ⟨S1, .i32⟩
  | .hbm, ⟨36, _⟩ => ⟨S_, .i32⟩
  | .hbm, ⟨37, _⟩ => ⟨S4096x1x1, .i32⟩
  | .hbm, ⟨38, _⟩ => ⟨S4096x1x1, .i1⟩
  | .hbm, ⟨39, _⟩ => ⟨S1x1x1, .i32⟩
  | .hbm, ⟨40, _⟩ => ⟨S4096x1x1, .i32⟩
  | .hbm, ⟨41, _⟩ => ⟨S4096x1x1, .i1⟩
  | .hbm, ⟨42, _⟩ => ⟨S4096x1x1, .i1⟩
  | .hbm, ⟨43, _⟩ => ⟨S_, .i1⟩
  | .hbm, ⟨44, _⟩ => ⟨S4096x1, .i1⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096, .f32⟩
  | .hbm, ⟨50, _⟩ => ⟨S4096, .f32⟩
  | .hbm, ⟨51, _⟩ => ⟨S4096, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v4 : Ref sig .tc := ⟨.hbm, 25, rfl⟩
abbrev main_v5 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_c_1 : Ref sig .tc := ⟨.hbm, 52, rfl⟩
abbrev main_v10 : Ref sig .tc := ⟨.hbm, 53, rfl⟩
abbrev main_c_2 : Ref sig .tc := ⟨.hbm, 54, rfl⟩
abbrev main_v11 : Ref sig .tc := ⟨.hbm, 55, rfl⟩
abbrev main_cst : Ref sig .tc := ⟨.hbm, 56, rfl⟩
abbrev main_call3_v0 : Ref sig .tc := ⟨.hbm, 57, rfl⟩
abbrev main_call3_v1 : Ref sig .tc := ⟨.hbm, 58, rfl⟩
abbrev main_v12 : Ref sig .tc := ⟨.hbm, 59, rfl⟩
abbrev main_cst_3 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  natLt_1_32 : 1 < 32
  reducesTo_S4096_S_d0 : S4096.ReducesTo [0] S_
  dot_S4096x4096_S32000x4096_S4096x32000_1_1_0_0_n_n_wf : DotDims.WF S4096x4096 S32000x4096 S4096x32000 [1] [1] [0] [0] [] []
  gather_S4096x32000_S4096x1x1_S4096x1_n_1_0_0_1_2_11_wf : GatherDims.WF S4096x32000 S4096x1x1 S4096x1 [] [1] [0] [1] [0] 2 ![1, 1]

variable [Facts₀]

def dot_S4096x4096_S32000x4096_S4096x32000_1_1_0_0_n_n : DotDims S4096x4096 S32000x4096 S4096x32000 where
  lhsContracting := [1]
  rhsContracting := [1]
  lhsNonContracting := [0]
  rhsNonContracting := [0]
  lhsBatch := []
  rhsBatch := []
  wf := dot_S4096x4096_S32000x4096_S4096x32000_1_1_0_0_n_n_wf
def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.KUpdate.lean ====
/-
  One block of the streamed pass, as the kernel's body computes it on a [1024]-row tile: from the activation tile `x0`
  [1024, 4096], the weight tile `x1` [1280, 4096], the tile's labels `x2` [1024, 1] and what the three carried columns held
  (`pm` the shift, `pl` the running sum, `pt` the picked logit), the new shift, sum and picked logit; and the tile's
  result from the three final columns.
-/
import proofs.«400565_j4887672783290_2_alg».proof.Proof.Gen.KernelIdeal.Skeleton

noncomputable section

namespace Cert.KernelIdeal.Online

open Cert.KernelIdeal Cert.KernelIdeal.Gen Idealize.ShloMosaic

variable {F : FTy → Type} [FloatOps F]

/-- The new shift: the old one joined with the block's row maxima. -/
def newM (x0 : Vec F S1024x4096 .bf16) (x1 : Vec F S1280x4096 .bf16) (pm : Vec F S1024x1 .f32) : Vec F S1024x1 .f32 :=
  k0_pay2 (k0_pay9 x0 x1 pm)

/-- The new running sum: the old one rescaled to the new shift, plus the block's exponentials. -/
def newL (x0 : Vec F S1024x4096 .bf16) (x1 : Vec F S1280x4096 .bf16) (pm pl : Vec F S1024x1 .f32) : Vec F S1024x1 .f32 :=
  k0_pay1 (k0_pay7 x0 x1) (k0_pay9 x0 x1 pm) pl (k0_pay10 x0 x1 pm pm)

/-- The new picked logit: the old one plus the block's logit at the label's column, if the column is in the block. -/
def newT (i : grid0.Coords) (x0 : Vec F S1024x4096 .bf16) (x1 : Vec F S1280x4096 .bf16) (x2 : Vec F S1024x1 .i32)
    (pt : Vec F S1024x1 .f32) : Vec F S1024x1 .f32 :=
  k0_pay8 i x0 x1 x2 pt

/-- The tile's result: shift plus log of the sum, less the picked logit. -/
def outV (vm vl vt : Vec F S1024x1 .f32) : Vec F S1024x1 .f32 := k0_pay3 vm vl vt

end Cert.KernelIdeal.Online

end
-- ==== Proof.KPieces.lean ====
/-
  What each control case of the streamed body leaves behind. A row tile is visited by twenty-five consecutive grid
  points, one per class block. Three [1024,1] columns are carried across them: the shift (a running row maximum), the
  running sum of exponentials taken relative to that shift, and the logit picked at the label's column. The first
  point of a tile (case A) resets the three columns to their initial values and then updates them with its block; a
  middle point (case B) updates what the point before left; the last point (case C) updates likewise and then stores
  shift + log(sum) - picked into the output block.

  Inside one visit every load that feeds an update of a column comes before that column's store, so the update is a
  function of the OLD columns (in case A: of the initial values just stored), while the output of case C is read from
  the columns AFTER their stores. Each statement below says that the contents the body's run found for a column (its
  stored pieces read back) are the corresponding update function of the block's inputs and the old columns.
-/
import proofs.«400565_j4887672783290_2_alg».proof.Proof.Gen.KernelIdeal.Frame
import proofs.«400565_j4887672783290_2_alg».proof.Proof.KUpdate
import Idealize.ShloMosaic.Lib.Pipeline.Value
import Idealize.ShloMosaic.Lib.Tactic

set_option maxRecDepth 16384

noncomputable section

namespace Cert.KernelIdeal.Online

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The origin of a [1024,1] column, as the function the covering-store lemmas are stated over. -/
private theorem hz : (![0, 0] : Fin 2 → Nat) = fun _ => 0 := funext fun a => by fin_cases a <;> rfl

variable (c : Dev nD) (i : grid0.Coords)
  (a2 : Memref sig .tc .vmem S1024x4096 .bf16) (h2 : a2.IsWhole) (a3 : Memref sig .tc .vmem S1280x4096 .bf16) (h3 : a3.IsWhole)
  (a4 : Memref sig .tc .vmem S1024x1 .i32) (h4 : a4.IsWhole) (a5 : Memref sig .tc .vmem S1024x1 .f32) (h5 : a5.IsWhole)
  (a6 : Memref sig .tc .vmem S1024x1 .f32) (h6 : a6.IsWhole) (a7 : Memref sig .tc .vmem S1024x1 .f32) (h7 : a7.IsWhole)
  (a8 : Memref sig .tc .vmem S1024x1 .f32) (h8 : a8.IsWhole)
  (x0 : Vec F S1024x4096 .bf16) (x1 : Vec F S1280x4096 .bf16) (x2 : Vec F S1024x1 .i32) (xs0 xs1 xs2 : Vec F S1024x1 .f32)

/-- Case A, the shift: the reset value joined with the block's row maxima. -/
theorem sout_A_0 (hc0 : cond0_0 i) (hc1 : ¬cond0_1 i) :
    sout0_A_0 c i a2 h2 a3 h3 a4 h4 a5 h5 a6 h6 a7 h7 a8 h8 hc0 hc1 x0 x1 x2 = newM x0 x1 k0_pay4 := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S1024x1) hz]
  simp only [View.readAt_eq_ld, h2.read_unread, h3.read_unread, h4.read_unread, h6.read_unread, h7.read_unread,
    h8.read_unread, View.ld_unit_zero (S := S1024x1) hz, View.ld_unit_zero (S := S1024x4096) hz,
    View.ld_unit_zero (S := S1280x4096) hz, View.readCov_unit_zero (S := S1024x1) _ hz, newM, newL, newT, outV]

/-- Case A, the running sum: the reset sum rescaled from the reset shift to the new one, plus the block's exponentials. -/
theorem sout_A_1 (hc0 : cond0_0 i) (hc1 : ¬cond0_1 i) :
    sout0_A_1 c i a2 h2 a3 h3 a4 h4 a5 h5 a6 h6 a7 h7 a8 h8 hc0 hc1 x0 x1 x2 = newL x0 x1 k0_pay4 k0_pay5 := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S1024x1) hz]
  simp only [View.readAt_eq_ld, h2.read_unread, h3.read_unread, h4.read_unread, h6.read_unread, h7.read_unread,
    h8.read_unread, View.ld_unit_zero (S := S1024x1) hz, View.ld_unit_zero (S := S1024x4096) hz,
    View.ld_unit_zero (S := S1280x4096) hz, View.readCov_unit_zero (S := S1024x1) _ hz, newM, newL, newT, outV]

/-- Case A, the picked logit: the reset value plus the block's logit at the label's column. -/
theorem sout_A_2 (hc0 : cond0_0 i) (hc1 : ¬cond0_1 i) :
    sout0_A_2 c i a2 h2 a3 h3 a4 h4 a5 h5 a6 h6 a7 h7 a8 h8 hc0 hc1 x0 x1 x2 = newT i x0 x1 x2 k0_pay6 := by
  unfold sout0_A_2
  rw [View.read_writes_eq_canon _ _ _ (scover0_A_2 c i a2 h2 a3 h3 a4 h4 a5 h5 a6 h6 a7 h7 a8 h8 hc0 hc1 x0 x1 x2)]
  unfold kernelRun0_A
  dsimp only
  sl_unfold_words
  rw [View.canon_cons_unit_zero (S := S1024x1) hz]
  simp only [View.readAt_eq_ld, h2.read_unread, h3.read_unread, h4.read_unread, h6.read_unread, h7.read_unread,
    h8.read_unread, View.ld_unit_zero (S := S1024x1) hz, View.ld_unit_zero (S := S1024x4096) hz,
    View.ld_unit_zero (S := S1280x4096) hz, View.readCov_unit_zero (S := S1024x1) _ hz, newM, newL, newT, outV]

/-- Case B, the shift: the old shift joined with the block's row maxima. -/
theorem sout_B_0 (hc0 : ¬cond0_0 i) (hc1 : ¬cond0_1 i) :
    sout0_B_0 c i a2 h2 a3 h3 a4 h4 a5 h5 a6 h6 a7 h7 a8 h8 hc0 hc1 x0 x1 x2 xs0 xs1 xs2 = newM x0 x1 xs0 := by
  unfold sout0_B_0
  rw [View.read_writes_eq_canon _ _ _ (scover0_B_0 c i a2 h2 a3 h3 a4 h4 a5 h5 a6 h6 a7 h7 a8 h8 hc0 hc1 x0 x1 x2 xs0 xs1 xs2)]
  unfold kernelRun0_B
  dsimp only
  sl_unfold_words
  rw [View.canon_unit_zero hz]
  simp only [View.readAt_eq_ld, h2.read_unread, h3.read_unread, h4.read_unread, h6.read_unread, h7.read_unread,
    h8.read_unread, View.ld_unit_zero (S := S1024x1) hz, View.ld_unit_zero (S := S1024x4096) hz,
    View.ld_unit_zero (S := S1280x4096) hz, View.readCov_unit_zero (S := S1024x1) _ hz, newM, newL, newT, outV]

/-- Case B, the running sum: the old sum rescaled to the new shift, plus the block's exponentials. -/
theorem sout_B_1 (hc0 : ¬cond0_0 i) (hc1 : ¬cond0_1 i) :
    sout0_B_1 c i a2 h2 a3 h3 a4 h4 a5 h5 a6 h6 a7 h7 a8 h8 hc0 hc1 x0 x1 x2 xs0 xs1 xs2 = newL x0 x1 xs0 xs1 := by
  unfold sout0_B_1
  rw [View.read_writes_eq_canon _ _ _ (scover0_B_1 c i a2 h2 a3 h3 a4 h4 a5 h5 a6 h6 a7 h7 a8 h8 hc0 hc1 x0 x1 x2 xs0 xs1 xs2)]
  unfold kernelRun0_B
  dsimp only
  sl_unfold_words
  rw [View.canon_unit_zero hz]
  simp only [View.readAt_eq_ld, h2.read_unread, h3.read_unread, h4.read_unread, h6.read_unread, h7.read_unread,
    h8.read_unread, View.ld_unit_zero (S := S1024x1) hz, View.ld_unit_zero (S := S1024x4096) hz,
    View.ld_unit_zero (S := S1280x4096) hz, View.readCov_unit_zero (S := S1024x1) _ hz, newM, newL, newT, outV]

/-- Case B, the picked logit: the old value plus the block's logit at the label's column. -/
theorem sout_B_2 (hc0 : ¬cond0_0 i) (hc1 : ¬cond0_1 i) :
    sout0_B_2 c i a2 h2 a3 h3 a4 h4 a5 h5 a6 h6 a7 h7 a8 h8 hc0 hc1 x0 x1 x2 xs0 xs1 xs2 = newT i x0 x1 x2 xs2 := by
  unfold sout0_B_2
  rw [View.read_writes_eq_canon _ _ _ (scover0_B_2 c i a2 h2 a3 h3 a4 h4 a5 h5 a6 h6 a7 h7 a8 h8 hc0 hc1 x0 x1 x2 xs0 xs1 xs2)]
  unfold kernelRun0_B
  dsimp only
  sl_unfold_words
  rw [View.canon_unit_zero hz]
  simp only [View.readAt_eq_ld, h2.read_unread, h3.read_unread, h4.read_unread, h6.read_unread, h7.read_unread,
    h8.read_unread, View.ld_unit_zero (S := S1024x1) hz, View.ld_unit_zero (S := S1024x4096) hz,
    View.ld_unit_zero (S := S1280x4096) hz, View.readCov_unit_zero (S := S1024x1) _ hz, newM, newL, newT, outV]

/-- Case C, the shift: as in a middle point. -/
theorem sout_C_0 (hc0 : ¬cond0_0 i) (hc1 : cond0_1 i) :
    sout0_C_0 c i a2 h2 a3 h3 a4 h4 a5 h5 a6 h6 a7 h7 a8 h8 hc0 hc1 x0 x1 x2 xs0 xs1 xs2 = newM x0 x1 xs0 := by
  unfold sout0_C_0
  rw [View.read_writes_eq_canon _ _ _ (scover0_C_0 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h6.read_unread, h7.read_unread,
    h8.read_unread, View.ld_unit_zero (S := S1024x1) hz, View.ld_unit_zero (S := S1024x4096) hz,
    View.ld_unit_zero (S := S1280x4096) hz, View.readCov_unit_zero (S := S1024x1) _ hz, newM, newL, newT, outV]

/-- Case C, the running sum: as in a middle point. -/
theorem sout_C_1 (hc0 : ¬cond0_0 i) (hc1 : cond0_1 i) :
    sout0_C_1 c i a2 h2 a3 h3 a4 h4 a5 h5 a6 h6 a7 h7 a8 h8 hc0 hc1 x0 x1 x2 xs0 xs1 xs2 = newL x0 x1 xs0 xs1 := by
  unfold sout0_C_1
  rw [View.read_writes_eq_canon _ _ _ (scover0_C_1 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h6.read_unread, h7.read_unread,
    h8.read_unread, View.ld_unit_zero (S := S1024x1) hz, View.ld_unit_zero (S := S1024x4096) hz,
    View.ld_unit_zero (S := S1280x4096) hz, View.readCov_unit_zero (S := S1024x1) _ hz, newM, newL, newT, outV]

/-- Case C, the picked logit: as in a middle point. -/
theorem sout_C_2 (hc0 : ¬cond0_0 i) (hc1 : cond0_1 i) :
    sout0_C_2 c i a2 h2 a3 h3 a4 h4 a5 h5 a6 h6 a7 h7 a8 h8 hc0 hc1 x0 x1 x2 xs0 xs1 xs2 = newT i x0 x1 x2 xs2 := by
  unfold sout0_C_2
  rw [View.read_writes_eq_canon _ _ _ (scover0_C_2 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h6.read_unread, h7.read_unread,
    h8.read_unread, View.ld_unit_zero (S := S1024x1) hz, View.ld_unit_zero (S := S1024x4096) hz,
    View.ld_unit_zero (S := S1280x4096) hz, View.readCov_unit_zero (S := S1024x1) _ hz, newM, newL, newT, outV]

/-- Case C, the output block: the tile's result computed from the three columns as this last point has just updated them. -/
theorem out_C_3 (hc0 : ¬cond0_0 i) (hc1 : cond0_1 i) :
    out0_C_3 c i a2 h2 a3 h3 a4 h4 a5 h5 a6 h6 a7 h7 a8 h8 hc0 hc1 x0 x1 x2 xs0 xs1 xs2 =
      outV (newM x0 x1 xs0) (newL x0 x1 xs0 xs1) (newT i x0 x1 x2 xs2) := by
  unfold out0_C_3
  rw [View.read_writes_eq_canon _ _ _ (cover0_C_3 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h6.read_unread, h7.read_unread,
    h8.read_unread, View.ld_unit_zero (S := S1024x1) hz, View.ld_unit_zero (S := S1024x4096) hz,
    View.ld_unit_zero (S := S1280x4096) hz, View.readCov_unit_zero (S := S1024x1) _ hz, newM, newL, newT, outV]

end Cert.KernelIdeal.Online

end
-- ==== Proof.LibKeepdims.lean ====
/-
  Two reads of a "keep the reduced axis" pair, as a sum or a maximum over an array's rows is used afterwards: the vector
  of per-row results `[a]` is cast to a column `[a, 1]`, and the column is broadcast along the rows to `[a, b]`.
  Read at `(i, j)` the result is the vector's entry `i`, whatever the column `j`.
-/
import Idealize.ShloMosaic.Lib.Pipeline.Value
import Idealize.ShloMosaic.Lib.ValueIdx

noncomputable section

namespace Cert.Lib

open Idealize.ShloMosaic Idealize.ShloMosaic.ValueIdx

variable {α : Type}

/-- A vector `[a]` cast to a column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pair together: a vector of per-row results kept as a column and broadcast along the rows reads, at `(i, j)`,
    the vector at `i`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.Lib

end
-- ==== Proof.KRows.lean ====
/-
  The kernel's per-block update, read at one row of the tile: the new shift is the old one joined with the row's
  largest logit of the block, the new sum is the old one rescaled plus the block's exponentials, the picked logit
  gains the block's logit at the label's column, and the tile's result is shift plus log of the sum less the pick.
  The three initial columns read the finite starting shift, zero and zero.
-/
import proofs.«400565_j4887672783290_2_alg».proof.Proof.KUpdate
import proofs.«400565_j4887672783290_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Online

open Idealize.ShloMosaic Idealize.ShloMosaic.ValueIdx Cert.KernelIdeal Cert.KernelIdeal.Gen

/-- The block's logit of tile row p and block column q: the inner product of the two tile rows. -/
abbrev dotRow (x0 : Vec Ideal S1024x4096 .bf16) (x1 : Vec Ideal S1280x4096 .bf16) (p : Fin 1024) (q : Fin 1280) : EReal := ∑ h : Fin 4096, x0 (ix2 p h) * x1 (ix2 q h)

/-- The product's left operand index, row coordinate: the output row. -/
theorem lhs_pay7_0 (i : S1024x1280.Idx) (q : dot_S1024x4096_S1280x4096_S1024x1280_1_1_0_0_n_n.contr.Idx) :
    (dot_S1024x4096_S1280x4096_S1024x1280_1_1_0_0_n_n.lhsIdx i q 0).val = (i 0).val := by
  unfold DotDims.lhsIdx
  rw [dif_neg (show ¬(0 : Fin S1024x4096.rank) ∈ dot_S1024x4096_S1280x4096_S1024x1280_1_1_0_0_n_n.lhsBatch by decide), dif_pos (show (0 : Fin S1024x4096.rank) ∈ dot_S1024x4096_S1280x4096_S1024x1280_1_1_0_0_n_n.lhsNonContracting by decide)]
  rfl
/-- The product's left operand index, contracted coordinate: the contraction index. -/
theorem lhs_pay7_1 (i : S1024x1280.Idx) (q : dot_S1024x4096_S1280x4096_S1024x1280_1_1_0_0_n_n.contr.Idx) :
    (dot_S1024x4096_S1280x4096_S1024x1280_1_1_0_0_n_n.lhsIdx i q 1).val = (q ⟨0, by decide⟩).val :=
  dot_S1024x4096_S1280x4096_S1024x1280_1_1_0_0_n_n.lhsIdx_val_of_single rfl i q
/-- The product's right operand index, row coordinate: the output column. -/
theorem rhs_pay7_0 (i : S1024x1280.Idx) (q : dot_S1024x4096_S1280x4096_S1024x1280_1_1_0_0_n_n.contr.Idx) :
    (dot_S1024x4096_S1280x4096_S1024x1280_1_1_0_0_n_n.rhsIdx i q 0).val = (i 1).val := by
  unfold DotDims.rhsIdx
  rw [dif_neg (show ¬(0 : Fin S1280x4096.rank) ∈ dot_S1024x4096_S1280x4096_S1024x1280_1_1_0_0_n_n.rhsBatch by decide), dif_pos (show (0 : Fin S1280x4096.rank) ∈ dot_S1024x4096_S1280x4096_S1024x1280_1_1_0_0_n_n.rhsNonContracting by decide)]
  rfl
/-- The product's right operand index, contracted coordinate: the contraction index. -/
theorem rhs_pay7_1 (i : S1024x1280.Idx) (q : dot_S1024x4096_S1280x4096_S1024x1280_1_1_0_0_n_n.contr.Idx) :
    (dot_S1024x4096_S1280x4096_S1024x1280_1_1_0_0_n_n.rhsIdx i q 1).val = (q ⟨0, by decide⟩).val :=
  dot_S1024x4096_S1280x4096_S1024x1280_1_1_0_0_n_n.rhsIdx_val_of_single rfl i q

/-- The block's logits: the product into the zero splat, read at (p, q), is the inner product of row p of the
    activations with row q of the weights. -/
theorem pay7_apply (x0 : Vec Ideal S1024x4096 .bf16) (x1 : Vec Ideal S1280x4096 .bf16) (p : Fin 1024) (q : Fin 1280) :
    k0_pay7 x0 x1 (ix2 p q) = dotRow x0 x1 p q := by
  unfold k0_pay7
  simp only [shapeCast_self]
  refine (Ideal.matmul_constant_zero_apply (φ₁ := .bf16) (φ₂ := .bf16) dot_S1024x4096_S1280x4096_S1024x1280_1_1_0_0_n_n none x0 x1 (ix2 p q)).trans ?_
  rw [← Equiv.sum_comp (contrEquiv1 dot_S1024x4096_S1280x4096_S1024x1280_1_1_0_0_n_n 4096 rfl rfl).symm]
  refine Finset.sum_congr rfl fun k _ => ?_
  have hk := contrEquiv1_symm_val dot_S1024x4096_S1280x4096_S1024x1280_1_1_0_0_n_n 4096 rfl rfl k
  have el : dot_S1024x4096_S1280x4096_S1024x1280_1_1_0_0_n_n.lhsIdx (ix2 p q) ((contrEquiv1 dot_S1024x4096_S1280x4096_S1024x1280_1_1_0_0_n_n 4096 rfl rfl).symm k) = ix2 p k := funext fun a => Fin.ext (by
    match a with
    | ⟨0, _⟩ => exact lhs_pay7_0 _ _
    | ⟨1, _⟩ => exact (lhs_pay7_1 _ _).trans hk)
  have er : dot_S1024x4096_S1280x4096_S1024x1280_1_1_0_0_n_n.rhsIdx (ix2 p q) ((contrEquiv1 dot_S1024x4096_S1280x4096_S1024x1280_1_1_0_0_n_n 4096 rfl rfl).symm k) = ix2 q k := funext fun a => Fin.ext (by
    match a with
    | ⟨0, _⟩ => exact rhs_pay7_0 _ _
    | ⟨1, _⟩ => exact (rhs_pay7_1 _ _).trans hk)
  rw [el, er]

/-- The reduced row index with the lane coordinate put back is the tile index (row, lane). -/
theorem lift_row (h : S1024x1280.Reduces [1] S1024) (p : Fin 1024) (q : Fin 1280) : h.lift (ix1 p) q = ix2 p q := by
  funext a
  match a with
  | ⟨0, _⟩ => rfl
  | ⟨1, _⟩ => rfl

/-- The accumulator word of the lane maximum is minus infinity. -/
theorem negInf_word : Ideal.ofBits .f32 0xFF800000#32 = ⊥ := by simp [Ideal.ofBits, Ideal.ieee]

/-- A lane sum kept as a column, read at row p: the sum over the row's lanes. -/
theorem rowSum_apply (f : FVec Ideal S1024x1280 .f32) (hφ : FKind.Formats .f32)
    (hacc : (0x00000000#32 : BitVec 32) = FKind.add.neutral .f32 hφ) (p : Fin 1024) :
    shapeCast S1024x1 (multiReduction .add [1] S1024 f 0x00000000#32 reduces_S1024x1280_S1024 hφ hacc)
      shapeCasts_S1024_S1024x1 (ix2 p 0) = ∑ q : Fin 1280, f (ix2 p q) := by
  refine (Cert.Lib.shapeCast_a_a1_apply _ _ p 0).trans ?_
  refine (Ideal.multiReduction_add_single (φ := .f32) _ _ _ _ _ (ix1 p)).trans ?_
  exact Finset.sum_congr rfl fun (q : Fin 1280) _ => congrArg f (lift_row reduces_S1024x1280_S1024 p q)

/-- The joined shift at row p: the old shift against the row's largest logit of the block. -/
theorem pay9_apply (x0 : Vec Ideal S1024x4096 .bf16) (x1 : Vec Ideal S1280x4096 .bf16) (pm : Vec Ideal S1024x1 .f32) (p : Fin 1024) :
    k0_pay9 x0 x1 pm (ix2 p 0) = max (pm (ix2 p 0)) (Finset.univ.fold max ⊥ (fun q : Fin 1280 => dotRow x0 x1 p q)) := by
  unfold k0_pay9
  refine (maximumf_apply (φ := .f32) pm _ (ix2 p 0)).trans ?_
  refine congrArg (max (pm (ix2 p 0))) ?_
  refine (Cert.Lib.shapeCast_a_a1_apply _ _ p 0).trans ?_
  refine (Ideal.multiReduction_maximumf_single (φ := .f32) _ _ _ _ _ (ix1 p)).trans ?_
  have e : (k0_pay7 x0 x1 ∘ reduces_S1024x1280_S1024.lift (ix1 p)) = fun q : Fin 1280 => dotRow x0 x1 p q :=
    funext fun q => (congrArg (k0_pay7 x0 x1) (lift_row _ p q)).trans (pay7_apply x0 x1 p q)
  rw [e]
  exact congrArg (fun b => Finset.fold max b (fun q : Fin 1280 => dotRow x0 x1 p q) Finset.univ) negInf_word

/-- The new shift is the joined shift: the cast to the same shape changes nothing. -/
theorem newM_eq (x0 : Vec Ideal S1024x4096 .bf16) (x1 : Vec Ideal S1280x4096 .bf16) (pm : Vec Ideal S1024x1 .f32) :
    newM x0 x1 pm = k0_pay9 x0 x1 pm := by
  unfold newM k0_pay2
  exact shapeCast_self _ _

/-- The new shift at row p: the old shift against the row's largest logit of the block. -/
theorem newM_apply (x0 : Vec Ideal S1024x4096 .bf16) (x1 : Vec Ideal S1280x4096 .bf16) (pm : Vec Ideal S1024x1 .f32) (p : Fin 1024) :
    newM x0 x1 pm (ix2 p 0) = max (pm (ix2 p 0)) (Finset.univ.fold max ⊥ (fun q : Fin 1280 => dotRow x0 x1 p q)) := by
  rw [newM_eq]; exact pay9_apply x0 x1 pm p

/-- The rescaling factor at row p: the exponential of the old shift less the joined one. -/
theorem pay10_apply (x0 : Vec Ideal S1024x4096 .bf16) (x1 : Vec Ideal S1280x4096 .bf16) (pm v30 : Vec Ideal S1024x1 .f32) (p : Fin 1024) :
    k0_pay10 x0 x1 pm v30 (ix2 p 0) = Ideal.exp (v30 (ix2 p 0) - k0_pay9 x0 x1 pm (ix2 p 0)) := by
  unfold k0_pay10
  rfl

/-- The new sum at row p, over any logits, shift, old sum and factor: the old sum times the factor plus the row's
    exponentials of the logits less the shift. -/
theorem pay1_apply (v7 : FVec Ideal S1024x1280 .f32) (v28 : FVec Ideal S1024x1 .f32) (v29 : Vec Ideal S1024x1 .f32)
    (v32 : FVec Ideal S1024x1 .f32) (p : Fin 1024) :
    k0_pay1 v7 v28 v29 v32 (ix2 p 0)
      = v29 (ix2 p 0) * v32 (ix2 p 0) + ∑ q : Fin 1280, Ideal.exp (v7 (ix2 p q) - v28 (ix2 p 0)) := by
  unfold k0_pay1
  rw [shapeCast_self]
  refine (addf_apply (φ := .f32) _ _ (ix2 p 0)).trans ?_
  refine congrArg (v29 (ix2 p 0) * v32 (ix2 p 0) + ·) ?_
  refine (rowSum_apply _ _ _ p).trans ?_
  refine Finset.sum_congr rfl fun (q : Fin 1280) _ => ?_
  exact congrArg (fun y => Ideal.exp (v7 (ix2 p q) - y)) (Cert.Lib.broadcastTo_a1_ab_apply v28 _ p q)

/-- The new sum at row p: the old sum rescaled to the new shift, plus the row's exponentials of the block's logits less
    the new shift. -/
theorem newL_apply (x0) (x1) (pm pl : Vec Ideal S1024x1 .f32) (p : Fin 1024) :
    newL x0 x1 pm pl (ix2 p 0) = pl (ix2 p 0) * Ideal.exp (pm (ix2 p 0) - newM x0 x1 pm (ix2 p 0)) + ∑ q : Fin 1280, Ideal.exp (dotRow x0 x1 p q - newM x0 x1 pm (ix2 p 0)) := by
  rw [newM_eq]
  unfold newL
  refine (pay1_apply _ _ _ _ p).trans ?_
  rw [pay10_apply]
  refine congrArg (pl (ix2 p 0) * Ideal.exp (pm (ix2 p 0) - k0_pay9 x0 x1 pm (ix2 p 0)) + ·) ?_
  refine Finset.sum_congr rfl fun q _ => ?_
  rw [pay7_apply]

/-- A word comparison for equality answers the bit one exactly when the two words are equal. -/
theorem cmpi_eq_one_iff {w : ℕ} (a b : BitVec w) : IntOp.cmpi .eq a b = 1#1 ↔ a = b := by
  show BitVec.ofBool (a == b) = 1#1 ↔ a = b
  cases hab : (a == b)
  · have hne : ¬ a = b := beq_eq_false_iff_ne.1 hab
    exact ⟨fun h' => absurd h' (by decide), fun h' => absurd h' hne⟩
  · exact ⟨fun _ => beq_iff_eq.1 hab, fun _ => rfl⟩

/-- The column word of block c at lane q — the lane number plus the block's offset, in 32-bit words — equals a label
    word exactly when the column number 1280 c + q is the label's value: nothing wraps, the column being below 32000. -/
theorem col_word_eq_iff (c q : ℕ) (hc : c < 25) (hq : q < 1280) (w : BitVec 32) :
    IntOp.cmpi .eq (IntOp.addi (BitVec.ofNat 32 q) (Scalar.muli (BitVec.ofNat 32 c) 1280#32)) w = 1#1
      ↔ 1280 * c + q = w.toNat := by
  rw [cmpi_eq_one_iff]
  unfold IntOp.addi Scalar.muli IntOp.muli
  constructor
  · intro h
    rw [← h]
    simp only [BitVec.toNat_add, BitVec.toNat_mul, BitVec.toNat_ofNat]
    omega
  · intro h
    apply BitVec.eq_of_toNat_eq
    simp only [BitVec.toNat_add, BitVec.toNat_mul, BitVec.toNat_ofNat]
    omega

/-- The new picked logit at row p: the old one plus the block's logit at the label's column, when that column lies in the block. -/
theorem newT_apply (i : grid0.Coords) (x0) (x1) (x2 : Vec Ideal S1024x1 .i32) (pt : Vec Ideal S1024x1 .f32) (p : Fin 1024) :
    newT i x0 x1 x2 pt (ix2 p 0) = pt (ix2 p 0) + ∑ q : Fin 1280, (if 1280 * (i 1).val + q.val = (x2 (ix2 p 0)).toNat then dotRow x0 x1 p q else 0) := by
  unfold newT k0_pay8
  simp only [shapeCast_self]
  refine (addf_apply (φ := .f32) _ _ (ix2 p 0)).trans ?_
  refine congrArg (pt (ix2 p 0) + ·) ?_
  refine (rowSum_apply _ _ _ p).trans ?_
  refine Finset.sum_congr rfl fun (q : Fin 1280) _ => ?_
  refine (select_apply _ _ _ (ix2 p q)).trans ?_
  unfold Scalar.select
  refine if_congr ?_ (pay7_apply x0 x1 p q) Ideal.ofBits_zero_f32
  have e1 : iota .tc S1024x1280 32 [1] iota_S1024x1280_d1_w32 (ix2 p q) = BitVec.ofNat 32 q.val :=
    iota_single_apply _ _ _ _ _ _
  have e2 : broadcastTo S1024x1280 x2 broadcasts_S1024x1_S1024x1280 (ix2 p q) = x2 (ix2 p 0) :=
    Cert.Lib.broadcastTo_a1_ab_apply x2 _ p q
  show IntOp.cmpi .eq (IntOp.addi (iota .tc S1024x1280 32 [1] iota_S1024x1280_d1_w32 (ix2 p q))
    (Scalar.muli (BitVec.ofNat 32 (i 1).val) 1280#32)) (broadcastTo S1024x1280 x2 broadcasts_S1024x1_S1024x1280 (ix2 p q)) = 1#1 ↔ _
  rw [e1, e2]
  exact col_word_eq_iff (i 1).val q.val (i 1).isLt q.isLt _

/-- The tile's result at row p: shift plus log of the sum, less the picked logit. -/
theorem outV_apply (vm vl vt : Vec Ideal S1024x1 .f32) (p : Fin 1024) : outV vm vl vt (ix2 p 0) = vm (ix2 p 0) + Ideal.log (vl (ix2 p 0)) - vt (ix2 p 0) := by
  unfold outV k0_pay3
  rfl

/-- The initial shift column holds the starting word everywhere. -/
theorem initM_apply (p : Fin 1024) : k0_pay4 (F := Ideal) (ix2 p 0) = Ideal.ofBits .f32 0xFF333332#32 := by
  unfold k0_pay4
  rw [shapeCast_self]
  rfl

/-- The initial sum column is zero. -/
theorem initL_apply (p : Fin 1024) : k0_pay5 (F := Ideal) (ix2 p 0) = 0 := by
  unfold k0_pay5
  rw [shapeCast_self]
  exact Ideal.ofBits_zero_f32

/-- The initial picked-logit column is zero. -/
theorem initT_apply (p : Fin 1024) : k0_pay6 (F := Ideal) (ix2 p 0) = 0 := by
  unfold k0_pay6
  rw [shapeCast_self]
  exact Ideal.ofBits_zero_f32

/-- The initial shift's word is a finite (negative) number: sign set, exponent field 254, so neither infinity nor junk. -/
theorem initM_real : ∃ μ : ℝ, Ideal.ofBits .f32 0xFF333332#32 = (μ : EReal) := by
  refine ⟨-(11744050 * 2 ^ 104), ?_⟩
  simp [Ideal.ofBits, Ideal.ieee]

end Cert.KernelIdeal.Online

end
-- ==== Proof.Nll.lean ====
/-
  What both programs compute, row by row.

  With `A` the [4096, 4096] activations, `W` the [32000, 4096] class weights and `T` the 4096 labels: row `r`'s logits are
  `logit r v = ∑ h, A (r, h) * W (v, h)`; a label equal to the ignore value -100 is replaced by class 0 (its row is masked out
  of the mean afterwards); and the row's negative log-likelihood is
      log (∑ v, exp (logit r v)) - logit r (label r).
  The value is written over the reals: finiteness of the inputs makes every logit a real number, and the labels' range makes
  the picked column one of the 32000.
-/
import Idealize.ShloMosaic.PureOps.Ideal
import Idealize.ShloMosaic.PureOps.Ideal.Laws
import Idealize.ShloMosaic.Lib.ValueIdx

noncomputable section

namespace Cert.Nll

open Idealize.ShloMosaic Idealize.ShloMosaic.ValueIdx Finset

abbrev SA : Shape := ⟨2, ![4096, 4096]⟩
abbrev SW : Shape := ⟨2, ![32000, 4096]⟩
abbrev ST : Shape := ⟨1, ![4096]⟩

/-- Row `r`'s logit for class `v`: the inner product of activation row `r` with weight row `v`. -/
def logit (A : SA.Idx → EReal) (W : SW.Idx → EReal) (r : Fin 4096) (v : Fin 32000) : EReal :=
  ∑ h : Fin 4096, A (ix2 r h) * W (ix2 v h)

/-- The same logit as a real number, indexed by a natural column (zero past the last class). -/
def xr (A : SA.Idx → EReal) (W : SW.Idx → EReal) (r : Fin 4096) (v : ℕ) : ℝ :=
  if h : v < 32000 then (logit A W r ⟨v, h⟩).toReal else 0

/-- The label with the ignore value -100 (the word 4294967196) replaced by class 0. -/
def safeT (T : ST.Idx → BitVec 32) (r : Fin 4096) : BitVec 32 :=
  if T (ix1 r) = 4294967196#32 then 0#32 else T (ix1 r)

/-- The column row `r` picks. -/
def col (T : ST.Idx → BitVec 32) (r : Fin 4096) : ℕ := (safeT T r).toNat

/-- Row `r`'s negative log-likelihood: the log of the sum of the exponentials of its logits, less the picked logit. -/
def rowNll (A : SA.Idx → EReal) (W : SW.Idx → EReal) (T : ST.Idx → BitVec 32) (r : Fin 4096) : EReal :=
  ((Real.log (∑ v ∈ range 32000, Real.exp (xr A W r v)) - xr A W r (col T r) : ℝ) : EReal)

/-- The domain: every activation and every weight a real number; every label the ignore value or a class below 32000. -/
structure Dom (A : SA.Idx → EReal) (W : SW.Idx → EReal) (T : ST.Idx → BitVec 32) : Prop where
  realA : ∀ i, ∃ a : ℝ, A i = a
  realW : ∀ i, ∃ w : ℝ, W i = w
  label : ∀ r : Fin 4096, T (ix1 r) = 4294967196#32 ∨ (T (ix1 r)).toNat < 32000

variable {A : SA.Idx → EReal} {W : SW.Idx → EReal} {T : ST.Idx → BitVec 32}

theorem col_lt (h : Dom A W T) (r : Fin 4096) : col T r < 32000 := by
  unfold col safeT
  rcases h.label r with e | e
  · rw [if_pos e]; decide
  · split
    · decide
    · exact e

/-- On the domain every logit is the real number `xr` names. -/
theorem logit_eq (h : Dom A W T) (r : Fin 4096) (v : Fin 32000) : logit A W r v = ((xr A W r v.val : ℝ) : EReal) := by
  obtain ⟨a, ha⟩ := Classical.axiomOfChoice h.realA
  obtain ⟨w, hw⟩ := Classical.axiomOfChoice h.realW
  have e : logit A W r v = ((∑ k : Fin 4096, a (ix2 r k) * w (ix2 v k) : ℝ) : EReal) := by
    unfold logit
    have : ∀ k : Fin 4096, A (ix2 r k) * W (ix2 v k) = ((a (ix2 r k) * w (ix2 v k) : ℝ) : EReal) := fun k => by
      rw [ha, hw, EReal.coe_mul]
    simp only [this]
    classical
    induction (Finset.univ : Finset (Fin 4096)) using Finset.induction_on with
    | empty => simp
    | insert k S hk ih => rw [Finset.sum_insert hk, Finset.sum_insert hk, EReal.coe_add, ih]
  unfold xr
  rw [dif_pos v.isLt, show (⟨v.val, v.isLt⟩ : Fin 32000) = v from rfl, e, EReal.toReal_coe]

end Cert.Nll

end
-- ==== Proof.KBlocks.lean ====
/-
  What the kernel's three input windows hold at a grid point, in terms of the program's argument arrays.

  The grid has 100 points; point t works on row tile t / 25 (1024 rows) and class block t % 25 (1280 classes). At point t
  the activation window holds rows 1024 (t / 25) + p of the activations, the weight window holds rows 1280 (t % 25) + q of
  the class weights (a change of number format is the identity over the extended reals), and the label window holds the
  labels of the tile's rows with the ignore value -100 replaced by class 0, as a column.
-/
import proofs.«400565_j4887672783290_2_alg».proof.Proof.Gen.KernelIdeal.Frame
import proofs.«400565_j4887672783290_2_alg».proof.Proof.Nll
import Idealize.ShloMosaic.Lib.ValueIdx
import Idealize.ShloMosaic.Lib.Pipeline.Value
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (m : (ℓ : Loc nD τ sig) → Buf (Elt Ideal) ℓ) (c : Dev nD) (t : Fin cfg0.N)

/-- The activation window's block at point `t`. -/
abbrev actBlk : Vec Ideal S1024x4096 .bf16 := iblk m c 0 t
/-- The weight window's block at point `t`. -/
abbrev wgtBlk : Vec Ideal S1280x4096 .bf16 := iblk m c 1 t
/-- The label window's block at point `t`. -/
abbrev lblBlk : Vec Ideal S1024x1 .i32 := iblk m c 2 t

/-- The grid has 100 points. -/
theorem t_lt : t.val < 100 := lt_of_lt_of_eq t.isLt N_0

/-- Row `p` of row tile `t / 25` is one of the 4096 rows. -/
theorem row_lt (p : Fin 1024) : 1024 * (t.val / 25) + p.val < 4096 := by
  have := t_lt t; have := p.isLt; omega

/-- Column `q` of class block `t % 25` is one of the 32000 classes. -/
theorem col_lt (q : Fin 1280) : 1280 * (t.val % 25) + q.val < 32000 := by
  have := q.isLt; omega

/-- The activation window's block index at point `t`: row tile `t / 25`, the one column block. -/
theorem idx0 : ∀ t : Fin cfg0.N, win0_0.index t (0 : Fin 2) = t.val / 25 ∧ win0_0.index t 1 = 0 :=
  (by decide +kernel : ∀ t : Fin grid0.N, _)
/-- The weight window's block index at point `t`: class block `t % 25`, the one column block. -/
theorem idx1 : ∀ t : Fin cfg0.N, win0_1.index t (0 : Fin 2) = t.val % 25 ∧ win0_1.index t 1 = 0 :=
  (by decide +kernel : ∀ t : Fin grid0.N, _)
/-- The label window's block index at point `t`: row tile `t / 25`, the one column. -/
theorem idx2 : ∀ t : Fin cfg0.N, win0_2.index t (0 : Fin 2) = t.val / 25 ∧ win0_2.index t 1 = 0 :=
  (by decide +kernel : ∀ t : Fin grid0.N, _)

/-- The activation window's array when the region is entered: the activations in the narrower number format. -/
theorem v4_eq : @Eq (FVec Ideal S4096x4096 .bf16) (V m c main_v4) (truncf .bf16 (m ((c : Thread nD τ).loc main_arg0)) bitsLt_bf16_f32) := by
  dsimp only [Gen.V, Gen.V0]
  simp only [Gen.hostOps0, Gen.hostOps0_1, Gen.hostOps0_2, List.flatten_cons, List.flatten_nil, List.append_nil, List.cons_append, List.nil_append]
  after_results

/-- The weight window's array when the region is entered: the class weights in the narrower number format. -/
theorem v5_eq : @Eq (FVec Ideal S32000x4096 .bf16) (V m c main_v5) (truncf .bf16 (m ((c : Thread nD τ).loc main_arg1)) bitsLt_bf16_f32) := by
  dsimp only [Gen.V, Gen.V0]
  simp only [Gen.hostOps0, Gen.hostOps0_1, Gen.hostOps0_2, List.flatten_cons, List.flatten_nil, List.append_nil, List.cons_append, List.nil_append]
  after_results

/-- The activation block at (p, h) is the activations at row `1024 (t / 25) + p`, column `h`: the block's coordinate in the
    array is block index times block size plus the coordinate inside the block, and the change of format is the identity. -/
theorem actBlk_apply (p : Fin 1024) (h : Fin 4096) : actBlk m c t (ix2 p h) = m ((c : Thread nD τ).loc main_arg0) (ix2 ⟨1024 * (t.val / 25) + p.val, row_lt t p⟩ h) := by
  unfold actBlk iblk
  rw [View.read_apply]
  show (V m c main_v4 : FVec Ideal S4096x4096 .bf16) _ = m (c.tc.loc main_arg0) _
  rw [v4_eq, truncf_apply]
  congr 1
  funext a
  apply Fin.ext
  match a with
  | ⟨0, _⟩ => show win0_0.index t 0 * 1024 + 1 * p.val = 1024 * (t.val / 25) + p.val; rw [(idx0 t).1]; omega
  | ⟨1, _⟩ => show win0_0.index t 1 * 4096 + 1 * h.val = h.val; rw [(idx0 t).2]; omega

/-- The weight block at (q, h) is the class weights at row `1280 (t % 25) + q`, column `h`. -/
theorem wgtBlk_apply (q : Fin 1280) (h : Fin 4096) : wgtBlk m c t (ix2 q h) = m ((c : Thread nD τ).loc main_arg1) (ix2 ⟨1280 * (t.val % 25) + q.val, col_lt t q⟩ h) := by
  unfold wgtBlk iblk
  rw [View.read_apply]
  show (V m c main_v5 : FVec Ideal S32000x4096 .bf16) _ = m (c.tc.loc main_arg1) _
  rw [v5_eq, truncf_apply]
  congr 1
  funext a
  apply Fin.ext
  match a with
  | ⟨0, _⟩ => show win0_1.index t 0 * 1280 + 1 * q.val = 1280 * (t.val % 25) + q.val; rw [(idx1 t).1]; omega
  | ⟨1, _⟩ => show win0_1.index t 1 * 4096 + 1 * h.val = h.val; rw [(idx1 t).2]; omega

/-- The label window's array when the region is entered: the labels with the ignore value replaced by class 0, as a column. -/
theorem v3_eq : @Eq (IVec S4096x1 32) (V m c main_v3) (shapeCast S4096x1 (select (cmpi .ne (m ((c : Thread nD τ).loc main_arg2)) (broadcastInDim S4096 ![] bcast_S_S4096 (constantI S_ 32 4294967196#32))) (m ((c : Thread nD τ).loc main_arg2)) (broadcastInDim S4096 ![] bcast_S_S4096 (constantI S_ 32 0#32))) shapeCasts_S4096_S4096x1) := by
  dsimp only [Gen.V, Gen.V0]
  simp only [Gen.hostOps0, Gen.hostOps0_1, Gen.hostOps0_2, List.flatten_cons, List.flatten_nil, List.append_nil, List.cons_append, List.nil_append]
  after_results
  rfl

/-- A word compared unequal to another, then used to choose between itself and zero. -/
theorem select_ne (x k : BitVec 32) : Scalar.select (IntOp.cmpi .ne x k) x 0#32 = if x = k then 0#32 else x := by
  by_cases h : x = k
  · rw [if_pos h]; subst h
    have : IntOp.cmpi .ne x x = 0#1 := by simp [IntOp.cmpi]
    rw [this]; exact select_zero _ _
  · rw [if_neg h]
    have : IntOp.cmpi .ne x k = 1#1 := by
      show BitVec.ofBool (x != k) = 1#1
      rw [show (x != k) = true from bne_iff_ne.mpr h]; rfl
    rw [this]; exact select_one _ _

/-- The label block at row `p` is the label of row `1024 (t / 25) + p` with the ignore value replaced by class 0: the column
    [4096, 1] has the same row-major position as the vector [4096], and the comparison, the two constants and the choice
    are pointwise. -/
theorem lblBlk_apply (p : Fin 1024) : lblBlk m c t (ix2 p 0) = Cert.Nll.safeT (m ((c : Thread nD τ).loc main_arg2)) ⟨1024 * (t.val / 25) + p.val, row_lt t p⟩ := by
  unfold lblBlk iblk
  rw [View.read_apply]
  show (V m c main_v3 : IVec S4096x1 32) _ = _
  rw [v3_eq]
  rw [shapeCast_apply _ _ _ (ix1 (⟨1024 * (t.val / 25) + p.val, row_lt t p⟩ : Fin 4096)) (by
    rw [Shape.rowMajor_val_one, Shape.rowMajor_val_two]
    show 1024 * (t.val / 25) + p.val = (win0_2.index t 0 * 1024 + 1 * p.val) * 1 + (win0_2.index t 1 * 1 + 1 * 0)
    rw [(idx2 t).1, (idx2 t).2]; omega)]
  rw [select_apply]
  show Scalar.select (IntOp.cmpi .ne (m ((c : Thread nD τ).loc main_arg2) (ix1 ⟨1024 * (t.val / 25) + p.val, row_lt t p⟩)) 4294967196#32)
      (m ((c : Thread nD τ).loc main_arg2) (ix1 ⟨1024 * (t.val / 25) + p.val, row_lt t p⟩)) 0#32 = _
  rw [select_ne]
  rfl

/-- The grid's second coordinate at point `t` is the class block `t % 25`. -/
theorem coord1 : ((grid0.coords t) 1).val = t.val % 25 :=
  (by decide +kernel : ∀ t : Fin grid0.N, ((grid0.coords t) 1).val = t.val % 25) t

end Cert.KernelIdeal.Blocks

end
-- ==== Proof.LogSumExp.lean ====
/-
  A log-sum-exp taken in one pass over the columns, block by block, read over the extended reals.

  The pass keeps three numbers per row: a running shift `m`, the running sum `l` of `exp (x v - m)` over the columns
  absorbed so far, and the logit `t` picked at the target column. Absorbing a block of columns with logits `X` replaces
  them by
      m' = max m (max of the block),   l' = l * exp (m - m') + ∑ exp (X q - m'),   t' = t + (the block's picked logit).
  Nothing below uses that the shift IS the maximum: it only has to be SOME real number `μ`, because
      μ + log (∑ exp (x v - μ)) = log (∑ exp (x v))                  for every real μ,
  (`exp (x - μ) = exp x * exp (-μ)`, and `log` of a product of positives is the sum of the logs). So the finite number the
  shift starts from never enters the result, and a reference that shifts by the true row maximum computes the same value.
  Every quantity is a real number as long as the logits are, which is what finiteness of the inputs gives.
-/
import Idealize.ShloMosaic.PureOps.Ideal
import Idealize.ShloMosaic.PureOps.Ideal.Laws

noncomputable section

namespace Cert.LogSumExp

open Idealize.ShloMosaic Finset

/-- The coercion of a finite real sum is the sum of the coercions. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem exp_coe (r : ℝ) : Ideal.exp (r : EReal) = ((Real.exp r : ℝ) : EReal) := rfl

theorem log_coe_of_pos {r : ℝ} (h : 0 < r) : Ideal.log (r : EReal) = ((Real.log r : ℝ) : EReal) := by
  show (if r ≤ 0 then (⊥ : EReal) else ((Real.log r : ℝ) : EReal)) = _
  rw [if_neg (not_le.2 h)]

/-- A maximum of finitely many reals taken from `-∞`, joined with a real, is a real. -/
theorem exists_real_max (μ : ℝ) {ι : Type} (S : Finset ι) (X : ι → EReal) (hX : ∀ q ∈ S, ∃ r : ℝ, X q = r) :
    ∃ μ' : ℝ, max (μ : EReal) (S.fold max ⊥ X) = μ' := by
  have hlt : S.fold max ⊥ X < ⊤ := by
    rw [Finset.fold_max_lt]
    exact ⟨bot_lt_top, fun q hq => by obtain ⟨r, hr⟩ := hX q hq; rw [hr]; exact EReal.coe_lt_top r⟩
  induction h : S.fold max ⊥ X using EReal.rec with
  | bot => exact ⟨μ, by simp⟩
  | coe r => exact ⟨max μ r, (EReal.coe_strictMono.monotone.map_max).symm⟩
  | top => rw [h] at hlt; exact absurd hlt (lt_irrefl _)

/-- A maximum of finitely many reals, at least one, taken from `-∞` is a real. -/
theorem exists_real_fold_max {ι : Type} (S : Finset ι) (hS : S.Nonempty) (X : ι → EReal) (hX : ∀ q ∈ S, ∃ r : ℝ, X q = r) :
    ∃ μ : ℝ, S.fold max ⊥ X = μ := by
  obtain ⟨q0, hq0⟩ := hS
  obtain ⟨r0, hr0⟩ := hX q0 hq0
  obtain ⟨μ', hμ'⟩ := exists_real_max r0 S X hX
  refine ⟨μ', ?_⟩
  rw [← hμ', max_eq_right]
  rw [← hr0]
  exact (Finset.le_fold_max (X q0)).2 (Or.inr ⟨q0, hq0, le_refl _⟩)

/-- The columns below `n` have been absorbed: the shift is SOME real `μ`, the running sum is that of `exp (x v - μ)` over
    them, and the picked logit is the logit at column `s` if it is among them (else zero). -/
def Absorbed (x : ℕ → ℝ) (s n : ℕ) (m l t : EReal) : Prop :=
  ∃ μ : ℝ, m = (μ : EReal) ∧ l = ((∑ v ∈ range n, Real.exp (x v - μ) : ℝ) : EReal)
    ∧ t = ((∑ v ∈ range n, (if v = s then x v else 0) : ℝ) : EReal)

/-- Before any column: any real shift, an empty sum, nothing picked. -/
theorem absorbed_zero (x : ℕ → ℝ) (s : ℕ) (μ : ℝ) : Absorbed x s 0 (μ : EReal) 0 0 :=
  ⟨μ, rfl, by simp, by simp⟩

/-- Absorbing the block of `b` columns after the first `n`. -/
theorem absorbed_step {x : ℕ → ℝ} {s n b : ℕ} {m l t : EReal} (h : Absorbed x s n m l t)
    (X : Fin b → EReal) (hX : ∀ q, X q = ((x (n + q.val) : ℝ) : EReal))
    (pick : Fin b → EReal) (hpick : ∀ q, pick q = if n + q.val = s then X q else 0)
    (m' l' t' : EReal)
    (hm : m' = max m (Finset.univ.fold max ⊥ X))
    (hl : l' = l * Ideal.exp (m - m') + ∑ q, Ideal.exp (X q - m'))
    (ht : t' = t + ∑ q, pick q) :
    Absorbed x s (n + b) m' l' t' := by
  obtain ⟨μ, rfl, rfl, rfl⟩ := h
  obtain ⟨μ', hμ'⟩ := exists_real_max μ Finset.univ X (fun q _ => ⟨_, hX q⟩)
  rw [hμ'] at hm
  subst hm
  refine ⟨μ', rfl, ?_, ?_⟩
  · rw [hl, Finset.sum_range_add, EReal.coe_add]
    congr 1
    · rw [← EReal.coe_sub, exp_coe, ← EReal.coe_mul, Finset.sum_mul]
      refine congrArg _ (Finset.sum_congr rfl fun v _ => ?_)
      rw [← Real.exp_add]; congr 1; ring
    · rw [← Fin.sum_univ_eq_sum_range (fun q => Real.exp (x (n + q) - μ')) b, coe_sum]
      refine Finset.sum_congr rfl fun q _ => ?_
      rw [hX q, ← EReal.coe_sub, exp_coe]
  · rw [ht, Finset.sum_range_add, EReal.coe_add]
    congr 1
    rw [← Fin.sum_univ_eq_sum_range (fun q => if n + q = s then x (n + q) else 0) b, coe_sum]
    refine Finset.sum_congr rfl fun q _ => ?_
    rw [hpick q, hX q]
    split <;> simp

/-- The positive total of the exponentials. -/
theorem sum_exp_pos (x : ℕ → ℝ) (μ : ℝ) {n : ℕ} (hn : 0 < n) : 0 < ∑ v ∈ range n, Real.exp (x v - μ) :=
  Finset.sum_pos (fun v _ => Real.exp_pos _) ⟨0, Finset.mem_range.2 hn⟩

/-- The shift cancels: `μ + log (∑ exp (x v - μ)) = log (∑ exp (x v))`. -/
theorem shift_cancel (x : ℕ → ℝ) (μ : ℝ) {n : ℕ} (hn : 0 < n) :
    μ + Real.log (∑ v ∈ range n, Real.exp (x v - μ)) = Real.log (∑ v ∈ range n, Real.exp (x v)) := by
  have e : ∑ v ∈ range n, Real.exp (x v - μ) = (∑ v ∈ range n, Real.exp (x v)) * Real.exp (-μ) := by
    rw [Finset.sum_mul]
    refine Finset.sum_congr rfl fun v _ => ?_
    rw [← Real.exp_add]; congr 1
  have hp : 0 < ∑ v ∈ range n, Real.exp (x v) := by simpa using sum_exp_pos x 0 hn
  rw [e, Real.log_mul (ne_of_gt hp) (ne_of_gt (Real.exp_pos _)), Real.log_exp]
  ring

/-- What the pass ends with, all columns absorbed: `m + log l - t` is the row's log-sum-exp less the target's logit. -/
theorem absorbed_result {x : ℕ → ℝ} {s n : ℕ} {m l t : EReal} (h : Absorbed x s n m l t) (hs : s < n) :
    m + Ideal.log l - t = ((Real.log (∑ v ∈ range n, Real.exp (x v)) - x s : ℝ) : EReal) := by
  obtain ⟨μ, rfl, rfl, rfl⟩ := h
  have hn : 0 < n := lt_of_le_of_lt (Nat.zero_le _) hs
  rw [log_coe_of_pos (sum_exp_pos x μ hn), ← EReal.coe_add, ← EReal.coe_sub, shift_cancel x μ hn,
    Finset.sum_ite_eq' (range n) s x, if_pos (Finset.mem_range.2 hs)]

/-- The same value as a reference spells it: shift every logit by a real `μ` (its row maximum), take the log of the sum
    (from zero) of the exponentials, subtract it from the shifted logit at the target, negate. -/
theorem shifted_result (x : ℕ → ℝ) {s n : ℕ} (hs : s < n) (M : EReal) (hM : ∃ μ : ℝ, M = μ)
    (X : Fin n → EReal) (hX : ∀ v, X v = ((x v.val : ℝ) : EReal)) :
    -((X ⟨s, hs⟩ - M) - Ideal.log (0 + ∑ v, Ideal.exp (X v - M)))
      = ((Real.log (∑ v ∈ range n, Real.exp (x v)) - x s : ℝ) : EReal) := by
  obtain ⟨μ, rfl⟩ := hM
  have hn : 0 < n := lt_of_le_of_lt (Nat.zero_le _) hs
  have e : ∑ v, Ideal.exp (X v - (μ : EReal)) = ((∑ v ∈ range n, Real.exp (x v - μ) : ℝ) : EReal) := by
    rw [← Fin.sum_univ_eq_sum_range (fun v => Real.exp (x v - μ)) n, coe_sum]
    refine Finset.sum_congr rfl fun v _ => ?_
    rw [hX v, ← EReal.coe_sub, exp_coe]
  rw [e, zero_add, log_coe_of_pos (sum_exp_pos x μ hn), hX ⟨s, hs⟩, ← EReal.coe_sub, ← EReal.coe_sub, ← EReal.coe_neg,
    ← shift_cancel x μ hn]
  congr 1
  ring

end Cert.LogSumExp

end
-- ==== Proof.KCarried.lean ====
/-
  What the kernel's three carried columns hold after every grid point, row by row.

  Point `t` works on row tile `t / 25` and class block `t % 25`. After it, row `p` of the tile has absorbed the columns
  below `1280 * (t % 25 + 1)` of its global row `1024 * (t / 25) + p`: the shift column holds some real number, the sum
  column the sum of `exp (logit - shift)` over those columns, the third column the logit at the label's column if it is
  among them. At a tile's first point the three columns start from the reset values (a finite shift, zero, zero), at the
  other points from what the point before left; at the tile's last point all 32000 columns are in, and the output block
  is `shift + log sum - picked`, the row's negative log-likelihood.
-/
import proofs.«400565_j4887672783290_2_alg».proof.Proof.KPieces
import proofs.«400565_j4887672783290_2_alg».proof.Proof.KRows
import proofs.«400565_j4887672783290_2_alg».proof.Proof.KBlocks
import proofs.«400565_j4887672783290_2_alg».proof.Proof.LogSumExp

noncomputable section

namespace Cert.KernelIdeal.Online

open Cert.KernelIdeal Cert.KernelIdeal.Gen Cert.KernelIdeal.Blocks Idealize.ShloMosaic Idealize.ShloMosaic.TcCoe
open Idealize.ShloMosaic.ValueIdx Idealize.SL.Sem Cert.Nll Cert.LogSumExp

variable (m : (ℓ : Loc nD τ sig) → Buf (Elt Ideal) ℓ) (c : Dev nD)

/-- The three argument arrays. -/
abbrev argA : SA.Idx → EReal := m ((c : Thread nD τ).loc main_arg0)
abbrev argW : SW.Idx → EReal := m ((c : Thread nD τ).loc main_arg1)
abbrev argT : ST.Idx → BitVec 32 := m ((c : Thread nD τ).loc main_arg2)

/-- The global row of tile row `p` at point `t`. -/
abbrev grow (t : Fin cfg0.N) (p : Fin 1024) : Fin 4096 := ⟨1024 * (t.val / 25) + p.val, row_lt t p⟩

/-- A block's logit is the global logit: tile row `p` against block column `q` at point `t` is row `grow t p` against
    class `1280 * (t % 25) + q`. -/
theorem dotRow_eq (h : Dom (argA m c) (argW m c) (argT m c)) (t : Fin cfg0.N) (p : Fin 1024) (q : Fin 1280) :
    dotRow (actBlk m c t) (wgtBlk m c t) p q
      = ((xr (argA m c) (argW m c) (grow t p) (1280 * (t.val % 25) + q.val) : ℝ) : EReal) := by
  have e : dotRow (actBlk m c t) (wgtBlk m c t) p q
      = logit (argA m c) (argW m c) (grow t p) ⟨1280 * (t.val % 25) + q.val, col_lt t q⟩ := by
    unfold logit
    refine Finset.sum_congr rfl fun k _ => ?_
    rw [actBlk_apply, wgtBlk_apply]
  rw [e, logit_eq h]

/-- ONE POINT, ONE ROW: from columns below `1280 * (t % 25)` absorbed to columns below `1280 * (t % 25 + 1)`. -/
theorem row_step (h : Dom (argA m c) (argW m c) (argT m c)) (t : Fin cfg0.N) (p : Fin 1024)
    (pm pl pt : Vec Ideal S1024x1 .f32)
    (hprev : Absorbed (xr (argA m c) (argW m c) (grow t p)) (col (argT m c) (grow t p)) (1280 * (t.val % 25))
      (pm (ix2 p 0)) (pl (ix2 p 0)) (pt (ix2 p 0))) :
    Absorbed (xr (argA m c) (argW m c) (grow t p)) (col (argT m c) (grow t p)) (1280 * (t.val % 25 + 1))
      (newM (actBlk m c t) (wgtBlk m c t) pm (ix2 p 0))
      (newL (actBlk m c t) (wgtBlk m c t) pm pl (ix2 p 0))
      (newT (grid0.coords t) (actBlk m c t) (wgtBlk m c t) (lblBlk m c t) pt (ix2 p 0)) := by
  have hn : 1280 * (t.val % 25 + 1) = 1280 * (t.val % 25) + 1280 := by ring
  rw [hn]
  refine absorbed_step hprev (fun q => dotRow (actBlk m c t) (wgtBlk m c t) p q) (fun q => dotRow_eq m c h t p q)
    (fun q => if 1280 * (t.val % 25) + q.val = col (argT m c) (grow t p) then dotRow (actBlk m c t) (wgtBlk m c t) p q else 0)
    (fun q => rfl) _ _ _ (newM_apply _ _ _ p) (newL_apply _ _ _ _ p) ?_
  rw [newT_apply, coord1, lblBlk_apply]
  rfl

/-! ## The three cases, as the updates of the point's blocks -/

/-- A tile's first point: the three columns are the updates of the reset values. -/
theorem outs_A (t : Fin cfg0.N) (h0 : t.val % 25 = 0) (h1 : ¬t.val % 25 = 24) :
    (outsAt0 m c t.val t.isLt).2.1 = newM (actBlk m c t) (wgtBlk m c t) (k0_pay4 (F := Ideal))
    ∧ (outsAt0 m c t.val t.isLt).2.2.1 = newL (actBlk m c t) (wgtBlk m c t) (k0_pay4 (F := Ideal)) (k0_pay5 (F := Ideal))
    ∧ (outsAt0 m c t.val t.isLt).2.2.2 = newT (grid0.coords t) (actBlk m c t) (wgtBlk m c t) (lblBlk m c t) (k0_pay6 (F := Ideal)) := by
  rw [outsAt0_A m c t h0 h1]
  dsimp only
  exact ⟨sout_A_0 c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      (iblk m c 0 t) (iblk m c 1 t) (iblk m c 2 t) ((hcond0_0 t).mpr h0) (fun h => h1 ((hcond0_1 t).mp h)),
    sout_A_1 c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      (iblk m c 0 t) (iblk m c 1 t) (iblk m c 2 t) ((hcond0_0 t).mpr h0) (fun h => h1 ((hcond0_1 t).mp h)),
    sout_A_2 c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      (iblk m c 0 t) (iblk m c 1 t) (iblk m c 2 t) ((hcond0_0 t).mpr h0) (fun h => h1 ((hcond0_1 t).mp h))⟩

/-- What the point before `t` left in the three columns. -/
abbrev prevM (t : Fin cfg0.N) : Vec Ideal S1024x1 .f32 := (outsAt0 m c (t.val - 1) (Nat.lt_of_le_of_lt (Nat.sub_le _ _) t.isLt)).2.1
abbrev prevL (t : Fin cfg0.N) : Vec Ideal S1024x1 .f32 := (outsAt0 m c (t.val - 1) (Nat.lt_of_le_of_lt (Nat.sub_le _ _) t.isLt)).2.2.1
abbrev prevT (t : Fin cfg0.N) : Vec Ideal S1024x1 .f32 := (outsAt0 m c (t.val - 1) (Nat.lt_of_le_of_lt (Nat.sub_le _ _) t.isLt)).2.2.2

/-- A middle point: the three columns are the updates of what the point before left. -/
theorem outs_B (t : Fin cfg0.N) (h0 : ¬t.val % 25 = 0) (h1 : ¬t.val % 25 = 24) :
    (outsAt0 m c t.val t.isLt).2.1 = newM (actBlk m c t) (wgtBlk m c t) (prevM m c t)
    ∧ (outsAt0 m c t.val t.isLt).2.2.1 = newL (actBlk m c t) (wgtBlk m c t) (prevM m c t) (prevL m c t)
    ∧ (outsAt0 m c t.val t.isLt).2.2.2 = newT (grid0.coords t) (actBlk m c t) (wgtBlk m c t) (lblBlk m c t) (prevT m c t) := by
  rw [outsAt0_B m c t h0 h1]
  dsimp only
  exact ⟨sout_B_0 c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      (iblk m c 0 t) (iblk m c 1 t) (iblk m c 2 t) (prevM m c t) (prevL m c t) (prevT m c t)
      (fun h => h0 ((hcond0_0 t).mp h)) (fun h => h1 ((hcond0_1 t).mp h)),
    sout_B_1 c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      (iblk m c 0 t) (iblk m c 1 t) (iblk m c 2 t) (prevM m c t) (prevL m c t) (prevT m c t)
      (fun h => h0 ((hcond0_0 t).mp h)) (fun h => h1 ((hcond0_1 t).mp h)),
    sout_B_2 c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      (iblk m c 0 t) (iblk m c 1 t) (iblk m c 2 t) (prevM m c t) (prevL m c t) (prevT m c t)
      (fun h => h0 ((hcond0_0 t).mp h)) (fun h => h1 ((hcond0_1 t).mp h))⟩

/-- A tile's last point: the columns updated likewise, and the output block the result of the three new columns. -/
theorem outs_C (t : Fin cfg0.N) (h0 : ¬t.val % 25 = 0) (h1 : t.val % 25 = 24) :
    (outsAt0 m c t.val t.isLt).1 = outV (newM (actBlk m c t) (wgtBlk m c t) (prevM m c t))
        (newL (actBlk m c t) (wgtBlk m c t) (prevM m c t) (prevL m c t))
        (newT (grid0.coords t) (actBlk m c t) (wgtBlk m c t) (lblBlk m c t) (prevT m c t))
    ∧ (outsAt0 m c t.val t.isLt).2.1 = newM (actBlk m c t) (wgtBlk m c t) (prevM m c t)
    ∧ (outsAt0 m c t.val t.isLt).2.2.1 = newL (actBlk m c t) (wgtBlk m c t) (prevM m c t) (prevL m c t)
    ∧ (outsAt0 m c t.val t.isLt).2.2.2 = newT (grid0.coords t) (actBlk m c t) (wgtBlk m c t) (lblBlk m c t) (prevT m c t) := by
  rw [outsAt0_C m c t h0 h1]
  dsimp only
  exact ⟨out_C_3 c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      (iblk m c 0 t) (iblk m c 1 t) (iblk m c 2 t) (prevM m c t) (prevL m c t) (prevT m c t)
      (fun h => h0 ((hcond0_0 t).mp h)) ((hcond0_1 t).mpr h1),
    sout_C_0 c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      (iblk m c 0 t) (iblk m c 1 t) (iblk m c 2 t) (prevM m c t) (prevL m c t) (prevT m c t)
      (fun h => h0 ((hcond0_0 t).mp h)) ((hcond0_1 t).mpr h1),
    sout_C_1 c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      (iblk m c 0 t) (iblk m c 1 t) (iblk m c 2 t) (prevM m c t) (prevL m c t) (prevT m c t)
      (fun h => h0 ((hcond0_0 t).mp h)) ((hcond0_1 t).mpr h1),
    sout_C_2 c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      (iblk m c 0 t) (iblk m c 1 t) (iblk m c 2 t) (prevM m c t) (prevL m c t) (prevT m c t)
      (fun h => h0 ((hcond0_0 t).mp h)) ((hcond0_1 t).mpr h1)⟩

/-! ## The induction over the grid's points -/

/-- After a tile's first point every row has absorbed the first 1280 columns, starting from the reset values. -/
theorem carried_first (h : Dom (argA m c) (argW m c) (argT m c)) (t : Fin cfg0.N) (h0 : t.val % 25 = 0) (p : Fin 1024) :
    Absorbed (xr (argA m c) (argW m c) (grow t p)) (col (argT m c) (grow t p)) (1280 * (t.val % 25 + 1))
      ((outsAt0 m c t.val t.isLt).2.1 (ix2 p 0)) ((outsAt0 m c t.val t.isLt).2.2.1 (ix2 p 0))
      ((outsAt0 m c t.val t.isLt).2.2.2 (ix2 p 0)) := by
  obtain ⟨eM, eL, eT⟩ := outs_A m c t h0 (by omega)
  rw [eM, eL, eT]
  refine row_step m c h t p _ _ _ ?_
  rw [initM_apply, initL_apply, initT_apply, h0, Nat.mul_zero]
  obtain ⟨μ, hμ⟩ := initM_real
  rw [hμ]
  exact absorbed_zero _ _ μ

/-- After any other point every row has absorbed one more block than after the point before. -/
theorem carried_next (h : Dom (argA m c) (argW m c) (argT m c)) (t : Fin cfg0.N) (h0 : ¬t.val % 25 = 0) (p : Fin 1024)
    (ih : Absorbed (xr (argA m c) (argW m c) (grow t p)) (col (argT m c) (grow t p)) (1280 * (t.val % 25))
      (prevM m c t (ix2 p 0)) (prevL m c t (ix2 p 0)) (prevT m c t (ix2 p 0))) :
    Absorbed (xr (argA m c) (argW m c) (grow t p)) (col (argT m c) (grow t p)) (1280 * (t.val % 25 + 1))
      ((outsAt0 m c t.val t.isLt).2.1 (ix2 p 0)) ((outsAt0 m c t.val t.isLt).2.2.1 (ix2 p 0))
      ((outsAt0 m c t.val t.isLt).2.2.2 (ix2 p 0)) := by
  by_cases h1 : t.val % 25 = 24
  · obtain ⟨-, eM, eL, eT⟩ := outs_C m c t h0 h1
    rw [eM, eL, eT]
    exact row_step m c h t p _ _ _ ih
  · obtain ⟨eM, eL, eT⟩ := outs_B m c t h0 h1
    rw [eM, eL, eT]
    exact row_step m c h t p _ _ _ ih

/-- AFTER EVERY POINT: row `p` of the point's tile has absorbed the columns below `1280 * (n % 25 + 1)`. -/
theorem carried (h : Dom (argA m c) (argW m c) (argT m c)) : ∀ (n : ℕ) (hn : n < cfg0.N) (p : Fin 1024),
    Absorbed (xr (argA m c) (argW m c) (grow ⟨n, hn⟩ p)) (col (argT m c) (grow ⟨n, hn⟩ p)) (1280 * (n % 25 + 1))
      ((outsAt0 m c n hn).2.1 (ix2 p 0)) ((outsAt0 m c n hn).2.2.1 (ix2 p 0)) ((outsAt0 m c n hn).2.2.2 (ix2 p 0)) := by
  intro n
  induction n with
  | zero => exact fun hn p => carried_first m c h ⟨0, hn⟩ rfl p
  | succ k ih =>
    intro hn p
    by_cases h0 : (k + 1) % 25 = 0
    · exact carried_first m c h ⟨k + 1, hn⟩ h0 p
    · refine carried_next m c h ⟨k + 1, hn⟩ h0 p ?_
      have hk := ih (Nat.lt_of_succ_lt hn) p
      have e1 : grow (⟨k, Nat.lt_of_succ_lt hn⟩ : Fin cfg0.N) p = grow (⟨k + 1, hn⟩ : Fin cfg0.N) p :=
        Fin.ext (by show 1024 * (k / 25) + p.val = 1024 * ((k + 1) / 25) + p.val; omega)
      have e2 : k % 25 + 1 = (k + 1) % 25 := by omega
      rw [e1, e2] at hk
      exact hk

/-- AT A TILE'S LAST POINT the output block holds, at row `p`, the row's negative log-likelihood. -/
theorem out_last (h : Dom (argA m c) (argW m c) (argT m c)) (t : Fin cfg0.N) (h1 : t.val % 25 = 24) (p : Fin 1024) :
    (outsAt0 m c t.val t.isLt).1 (ix2 p 0) = rowNll (argA m c) (argW m c) (argT m c) (grow t p) := by
  have h0 : ¬t.val % 25 = 0 := by omega
  obtain ⟨eO, eM, eL, eT⟩ := outs_C m c t h0 h1
  have hc := carried m c h t.val t.isLt p
  rw [eM, eL, eT, h1] at hc
  have e32 : 1280 * (24 + 1) = 32000 := by norm_num
  rw [e32] at hc
  rw [eO, outV_apply, absorbed_result hc (col_lt h _)]
  rfl

end Cert.KernelIdeal.Online

end
-- ==== Proof.KFinal.lean ====
/-
  The kernel's output array after the run: entry `(r, 0)` is row `r`'s negative log-likelihood.

  The output window's block moves with the row tile only, and is written back at a tile's last point (`t % 25 = 24`),
  where it holds the tile's 1024 results. The four write-backs cover the 4096 rows.
-/
import proofs.«400565_j4887672783290_2_alg».proof.Proof.KCarried

set_option maxRecDepth 16384

noncomputable section

namespace Cert.KernelIdeal.Online

open Cert.KernelIdeal Cert.KernelIdeal.Gen Cert.KernelIdeal.Blocks Idealize.ShloMosaic Idealize.ShloMosaic.TcCoe
open Idealize.ShloMosaic.ValueIdx Idealize.SL.Sem Cert.Nll Cert.LogSumExp
open Idealize.ShloMosaic.Pipeline (Dat)

variable (m : (ℓ : Loc nD τ sig) → Buf (Elt Ideal) ℓ) (c : Dev nD)

/-- The column of per-row results. -/
abbrev nllCol : S4096x1.Idx → EReal := fun i =>
  rowNll (argA m c) (argW m c) (argT m c) ⟨(i 0).val, (i 0).isLt⟩

/-- The output window's block index is the row tile, decided once over the grid. -/
theorem idx3 : ∀ t : Fin cfg0.N, win0_3.index t (0 : Fin 2) = t.val / 25 ∧ win0_3.index t (1 : Fin 2) = 0 :=
  (by decide +kernel : ∀ t : Fin grid0.N, _)

/-- Every row tile has its last point, and that point writes the block back. -/
theorem last3 : ∀ b : Fin 4, ∃ t : Fin cfg0.N, (cfg0.win 3).flush t = true ∧ t.val / 25 = b.val :=
  (by decide +kernel : ∀ b : Fin 4, ∃ t : Fin grid0.N, (cfg0.win 3).flush t = true ∧ t.val / 25 = b.val)

/-- The output block at a tile's last point, at any index of the block. -/
theorem out_last_at (h : Dom (argA m c) (argW m c) (argT m c)) (t : Fin cfg0.N) (h1 : t.val % 25 = 24) (j : S1024x1.Idx) :
    (outsAt0 m c t.val t.isLt).1 j = rowNll (argA m c) (argW m c) (argT m c) (grow t ⟨(j 0).val, (j 0).isLt⟩) := by
  obtain ⟨p, u, rfl⟩ : ∃ (p : Fin 1024) (u : Fin 1), j = ix2 p u := ⟨j 0, j 1, eq_ix2 j⟩
  obtain rfl : u = 0 := Subsingleton.elim _ _
  exact out_last m c h t h1 p

/-- WHAT A TILE'S LAST POINT WRITES BACK is its block of the column of results. -/
theorem flushed_eq (h : Dom (argA m c) (argW m c) (argT m c)) (t : Fin cfg0.N) (hf : (cfg0.win 3).flush t = true) :
    (dats m 0 c).flushed 3 t = ((cfg0.win 3).blk t).view.read (Elt Ideal) (nllCol m c) := by
  have h1 : t.val % 25 = 24 := (flush0_3 t).mp hf
  show (cfg0.win 3).cut (grid0.coords t) ((dats m 0 c).after 3 t) = _
  rw [after0_3]
  funext j
  show (outsAt0 m c t.val t.isLt).1 j = nllCol m c (((cfg0.win 3).blk t).view.emb j)
  rw [out_last_at m c h t h1 j]
  show rowNll _ _ _ _ = rowNll _ _ _ _
  congr 1
  apply Fin.ext
  show 1024 * (t.val / 25) + (j 0).val = win0_3.index t (0 : Fin 2) * 1024 + 1 * (j 0).val
  rw [(idx3 t).1]
  omega

/-- An index of the array is in point `t`'s block iff each coordinate is in the block's range on its axis. -/
theorem mem_blk3 (t : Fin cfg0.N) (i : S4096x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v6).slice (win0_3.rect t)).set ↔ _
  rw [View.set_slice_whole, Rect.mem_set_unit]
  exact Iff.rfl

/-- THE OUTPUT ARRAY after the run is the column of per-row negative log-likelihoods. -/
theorem final (h : Dom (argA m c) (argW m c) (argT m c)) : (dats m 0 c).arrAt 3 cfg0.N = nllCol m c :=
  (dats m 0 c).arrAt_eq_of_cover 3 (nllCol m c) (fun t hf => flushed_eq m c h t hf) fun i => by
    have hi0 : (i 0).val < 4096 := (i 0).isLt
    have hi1 : (i 1).val < 1 := (i 1).isLt
    obtain ⟨t, hf, hb⟩ := last3 ⟨(i 0).val / 1024, by omega⟩
    obtain ⟨e0, e1⟩ := idx3 t
    refine ⟨t, hf, ?_⟩
    rw [mem_blk3]
    intro a
    match a with
    | ⟨0, _⟩ =>
      show win0_3.index t (0 : Fin 2) * 1024 ≤ (i 0).val ∧ (i 0).val < win0_3.index t (0 : Fin 2) * 1024 + 1024
      rw [e0, hb]
      dsimp only
      omega
    | ⟨1, _⟩ =>
      show win0_3.index t (1 : Fin 2) * 1 ≤ (i 1).val ∧ (i 1).val < win0_3.index t (1 : Fin 2) * 1 + 1
      rw [e1]
      omega

end Cert.KernelIdeal.Online

end
-- ==== Proof.KTail.lean ====
/-
  The kernel program's run with its result named. After the pallas_call the program reshapes the call's [4096, 1] output to a
  vector of 4096 rows, counts the rows whose label is not the ignore value -100, replaces the ignored rows' values by zero,
  sums, and divides by the count (at least one): the masked mean. Here that mean is one definition, `tail`, applied to the
  labels and to the call's output array read as a vector; the arithmetic inside it is never opened.
-/
import proofs.«400565_j4887672783290_2_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal
open Cert.KernelIdeal.Gen (dats run_main V0 hostOps1 hostOps1_1 hostOps1_2 launch0 W_main_arg0 W_main_arg1 W_main_arg2)
open Facts₀ Facts

/-- The mean over the rows whose label is not the ignore value -100: the rows' values with the ignored ones replaced by zero, summed from zero, divided by the number of kept rows (at least one) as a float. -/
def tail (T : IVec S4096 32) (Y : FVec Ideal S4096 .f32) : FVec Ideal S_ .f32 :=
  let valid : IVec S4096 1 := cmpi .ne T (broadcastInDim S4096 ![] bcast_S_S4096 (constantI S_ 32 4294967196#32))
  Host.divf (F := Ideal)
    (Host.reduceAdd (F := Ideal) (select valid Y (broadcastInDim S4096 ![] bcast_S_S4096 (constant (F := Ideal) S_ .f32 0x00000000#32)))
      (constant (F := Ideal) S_ .f32 0x00000000#32) reducesTo_S4096_S_d0 h_S_)
    (sitofp (F := Ideal) .f32 (maxsi (Host.reduce IntOp.addi (extui 32 valid natLt_1_32) (constantI S_ 32 0#32) reducesTo_S4096_S_d0 h_S_) (constantI S_ 32 1#32)))

variable (m : (ℓ : Loc nD τ sig) → Buf (Elt Ideal) ℓ) (ρ : Dev nD → PrngReg)

/-- The output array of the pallas_call, [4096, 1], read as a vector of 4096 rows. -/
def outVec (c : Dev nD) : FVec Ideal S4096 .f32 := fun i => (dats m 0 c).arrAt 3 cfg0.N (ix2 (i 0) (0 : Fin 1))

/-- A [4096, 1] array reshaped to a vector, read at row `i`: the array at `(i, 0)` (the same row-major position). -/
theorem reshape_eq {α : Type} (X : S4096x1.Idx → α) (h : S4096x1.ShapeCasts S4096) (i : S4096.Idx) :
    shapeCast S4096 X h i = X (ix2 (i 0) (0 : Fin 1)) := by
  refine shapeCast_apply X h i (ix2 (i 0) (0 : Fin 1)) ?_
  rw [Shape.rowMajor_val_two, Shape.rowMajor_val_one]
  show (i 0).val * 1 + 0 = (i 0).val
  omega

/-- The row mask as the operations after the call find it: the labels compared with the ignore value. No operation of the
    call's region writes it, and before the region it was computed from the labels. -/
theorem mask_eq (c : Dev nD) :
    (Pipeline.withArrays (cfgs 0).spec c (V0 m c) (fun w => (dats m 0 c).arrAt w (cfgs 0).N) (Proc.devRef .tc main_v1) : IVec S4096 1)
      = cmpi .ne (m ((c : Thread nD τ).loc main_arg2)) (broadcastInDim S4096 ![] bcast_S_S4096 (constantI S_ 32 4294967196#32)) := by
  rw [Pipeline.withArrays_of_ne _ c (V0 m c) _ main_v1 (by exact (by decide : ∀ w, Pipeline.arrRef spec0 w ≠ main_v1))]
  dsimp only [Gen.V0]
  simp only [Gen.hostOps0, Gen.hostOps0_1, Gen.hostOps0_2, List.flatten_cons, List.flatten_nil, List.append_nil, List.cons_append, List.nil_append]
  after_results

/-- The call's output array as the operations after the call find it. -/
theorem out_eq (c : Dev nD) :
    Pipeline.withArrays (cfgs 0).spec c (V0 m c) (fun w => (dats m 0 c).arrAt w (cfgs 0).N) (Proc.devRef .tc main_v6)
      = (dats m 0 c).arrAt 3 cfg0.N :=
  Pipeline.withArrays_arr spec0 launch0.win.arr_inj c _ _ 3

/-- The call's output, reshaped to a vector by the first operation after the call, is that array read row by row. -/
theorem vec_eq (c : Dev nD) :
    ((fun i => shapeCast main_v7.ty.shape (Pipeline.withArrays (cfgs 0).spec c (V0 m c) (fun w => (dats m 0 c).arrAt w (cfgs 0).N) (Proc.devRef .tc main_v6))
        Gen.shapeCasts_S4096x1_S4096 i) : FVec Ideal S4096 .f32) = outVec m c := by
  funext i
  refine (reshape_eq _ Gen.shapeCasts_S4096x1_S4096 i).trans ?_
  exact congrFun (out_eq m c) (ix2 (i 0) (0 : Fin 1))

/-- The program's result after the operations that follow the call: the masked mean of the call's output. -/
theorem tail_eq (c : Dev nD) :
    Pipeline.afterTail₀ cfgs (dats m) 0 (V0 m) [hostOps1, hostOps1_1, hostOps1_2] c main_v14
      = tail (m ((c : Thread nD τ).loc main_arg2)) (outVec m c) := by
  unfold Pipeline.afterTail₀
  simp only [Gen.hostOps1, Gen.hostOps1_1, Gen.hostOps1_2, List.flatten_cons, List.flatten_nil, List.append_nil, List.cons_append, List.nil_append]
  show StableHlo.after _ _ (Proc.devRef .tc main_v14) = _
  after_results
  simp only [StableHlo.TRef.ofBuf, StableHlo.TRef.toBuf, cast_eq, id]
  rw [mask_eq m c]
  refine Eq.trans ?_ (congrArg (tail (m ((c : Thread nD τ).loc main_arg2))) (vec_eq m c))
  rfl

/-- THE RUN. From any memory with zero counters every weakly fair execution of the program terminates, and in every final
    state the program's result is the masked mean of the call's output array, read as a vector, under the labels' mask, while
    the three arguments hold what they were launched with: the result and the arguments are buffers no window of the call
    stages, so they end as the operations after the call leave them. -/
theorem run : θ_run defs (onTc (τ := τ) (main (F := Ideal))) ⟨m, fun _ => 0, ρ⟩ (fun r => ∀ c : Dev nD,
      r.2.mem ((c : Thread nD τ).loc main_v14) = tail (m ((c : Thread nD τ).loc main_arg2)) (outVec m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tail

end
-- ==== Proof.RefValue.lean ====
/-
  The reference program's run with its result named, and the value of each row.

  The reference forms every row's logits, takes their log-softmax (shifting by the row's maximum), picks the entry at the
  row's label (the ignore value -100 replaced by class 0), negates it, and averages over the rows whose label is not the
  ignore value. Here the last step, the masked mean, is named as a function of the labels and the per-row values, the
  per-row values are named as a function of the three arguments, and each per-row value is shown to be the row's negative
  log-likelihood: the log of the sum of the exponentials of the row's logits less the logit at the label.

  The per-row value is read stage by stage. On the domain the safe label s is below 32000, so as a signed word it is not
  negative: the wrap-around select keeps it, the in-range test 0 ≤ s ≤ 31999 holds (at every row, so its and-reduction
  from 1 is 1 and the not-a-number branch is never taken), and the gather's clamp of the start index into the 32000
  columns is the identity: the picked entry is the log-softmax at (r, s). The row's shift, the maximum of its logits
  taken from -∞, is a real number because every logit is; and for ANY real shift μ
      -((x s - μ) - log (∑ exp (x v - μ))) = log (∑ exp (x v)) - x s.
-/
import proofs.«400565_j4887672783290_2_alg».proof.Proof.RefReadGen
import proofs.«400565_j4887672783290_2_alg».proof.Proof.Nll
import proofs.«400565_j4887672783290_2_alg».proof.Proof.LogSumExp
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.TcCoe Idealize.SL.Sem

/-- The mean over the rows whose label is not the ignore value -100: the rows' values with the ignored ones replaced by zero, summed from zero, divided by the number of kept rows (at least one) as a float. -/
def tail (T : IVec S4096 32) (Y : FVec Ideal S4096 .f32) : FVec Ideal S_ .f32 :=
  let valid : IVec S4096 1 := cmpi .ne T (broadcastInDim S4096 ![] bcast_S_S4096 (constantI S_ 32 4294967196#32))
  Host.divf (F := Ideal)
    (Host.reduceAdd (F := Ideal) (select valid Y (broadcastInDim S4096 ![] bcast_S_S4096 (constant (F := Ideal) S_ .f32 0x00000000#32)))
      (constant (F := Ideal) S_ .f32 0x00000000#32) reducesTo_S4096_S_d0 h_S_)
    (sitofp (F := Ideal) .f32 (maxsi (Host.reduce IntOp.addi (extui 32 valid natLt_1_32) (constantI S_ 32 0#32) reducesTo_S4096_S_d0 h_S_) (constantI S_ 32 1#32)))

/-- The reference's vector of per-row negative log-likelihoods (its %8) as a function of the three arguments: the composed stages of the generated read module up to the negation. -/
def refNll (A : FVec Ideal S4096x4096 .f32) (W : FVec Ideal S32000x4096 .f32) (T : IVec S4096 32) : FVec Ideal S4096 .f32 :=
  val_main_v8 (F := Ideal) A W T

/-- The reference's last stage is the masked mean of its per-row values: the two are one term. -/
theorem mean_eq (A : FVec Ideal S4096x4096 .f32) (W : FVec Ideal S32000x4096 .f32) (T : IVec S4096 32) :
    val_main_v15 (F := Ideal) A W T = tail T (refNll A W T) := rfl

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v15) = tail (m ((c.tc : Thread nD τ).loc main_arg2)) (refNll (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans ((val_main_v15_eq m c).trans (mean_eq _ _ _)), (h c).2⟩)
    (Cert.ReferenceIdeal.ValueP.run (F := Ideal) m ρ)

/-! ## The gather read at a row -/

/-- The gather of take_along_axis read at row r: the operand at (r, c), c the row's start index read signed and clamped into the 32000 columns. -/
theorem gather_apply {α : Type} {w : Nat} (x : S4096x32000.Idx → α) (idx : IVec S4096x1x1 w) (r : Fin 4096) :
    Host.gather gather_S4096x32000_S4096x1x1_S4096x1_n_1_0_0_1_2_11 x idx (ix2 r (0 : Fin 1))
      = x (ix2 r ⟨min (idx (ix3 r (0 : Fin 1) (0 : Fin 1))).toInt.toNat 31999, by omega⟩) := by
  unfold Host.gather
  congr 1
  funext a
  refine Fin.ext ?_
  match a with
  | ⟨0, _⟩ =>
    -- the row axis is the batching axis: no start, the batch coordinate is the row, no offset
    show gather_S4096x32000_S4096x1x1_S4096x1_n_1_0_0_1_2_11.start (ix2 r (0 : Fin 1)) idx 0
      + gather_S4096x32000_S4096x1x1_S4096x1_n_1_0_0_1_2_11.batchCoord (ix2 r (0 : Fin 1)) 0
      + gather_S4096x32000_S4096x1x1_S4096x1_n_1_0_0_1_2_11.offCoord (ix2 r (0 : Fin 1)) 0 = r.val
    have h1 : gather_S4096x32000_S4096x1x1_S4096x1_n_1_0_0_1_2_11.start (ix2 r (0 : Fin 1)) idx 0 = 0 := by
      unfold GatherDims.start
      rw [dif_neg (show ¬ (0 : Fin S4096x32000.rank) ∈ gather_S4096x32000_S4096x1x1_S4096x1_n_1_0_0_1_2_11.startIndexMap by decide)]
    have h3 : gather_S4096x32000_S4096x1x1_S4096x1_n_1_0_0_1_2_11.offCoord (ix2 r (0 : Fin 1)) 0 = 0 :=
      GatherDims.offCoord_eq_zero _ _ _ (by decide)
    have h2 : gather_S4096x32000_S4096x1x1_S4096x1_n_1_0_0_1_2_11.batchCoord (ix2 r (0 : Fin 1)) 0 = r.val := by
      unfold GatherDims.batchCoord
      rw [dif_pos (show (0 : Fin S4096x32000.rank) ∈ gather_S4096x32000_S4096x1x1_S4096x1_n_1_0_0_1_2_11.operandBatchingDims by decide)]
      rfl
    rw [h1, h2, h3, Nat.zero_add, Nat.add_zero]
  | ⟨1, _⟩ =>
    -- the class axis is collapsed and start-indexed: the clamped start, no batch coordinate, no offset
    show gather_S4096x32000_S4096x1x1_S4096x1_n_1_0_0_1_2_11.start (ix2 r (0 : Fin 1)) idx 1
      + gather_S4096x32000_S4096x1x1_S4096x1_n_1_0_0_1_2_11.batchCoord (ix2 r (0 : Fin 1)) 1
      + gather_S4096x32000_S4096x1x1_S4096x1_n_1_0_0_1_2_11.offCoord (ix2 r (0 : Fin 1)) 1
      = min (idx (ix3 r (0 : Fin 1) (0 : Fin 1))).toInt.toNat 31999
    have h2 : gather_S4096x32000_S4096x1x1_S4096x1_n_1_0_0_1_2_11.batchCoord (ix2 r (0 : Fin 1)) 1 = 0 :=
      GatherDims.batchCoord_eq_zero _ _ _ (by decide)
    have h3 : gather_S4096x32000_S4096x1x1_S4096x1_n_1_0_0_1_2_11.offCoord (ix2 r (0 : Fin 1)) 1 = 0 :=
      GatherDims.offCoord_eq_zero _ _ _ (by decide)
    have hm : (1 : Fin S4096x32000.rank) ∈ gather_S4096x32000_S4096x1x1_S4096x1_n_1_0_0_1_2_11.startIndexMap := by decide
    have h1 : gather_S4096x32000_S4096x1x1_S4096x1_n_1_0_0_1_2_11.start (ix2 r (0 : Fin 1)) idx 1
        = min (idx (ix3 r (0 : Fin 1) (0 : Fin 1))).toInt.toNat 31999 := by
      unfold GatherDims.start
      rw [dif_pos hm]
      have hsi : gather_S4096x32000_S4096x1x1_S4096x1_n_1_0_0_1_2_11.siIdx (ix2 r (0 : Fin 1))
          ⟨List.idxOf (1 : Fin S4096x32000.rank) gather_S4096x32000_S4096x1x1_S4096x1_n_1_0_0_1_2_11.startIndexMap,
            List.idxOf_lt_length_iff.2 hm⟩ = ix3 r (0 : Fin 1) (0 : Fin 1) := by
        funext b; refine Fin.ext ?_
        match b with
        | ⟨0, _⟩ => rfl
        | ⟨1, _⟩ => rfl
        | ⟨2, _⟩ => rfl
      rw [hsi]
      rfl
    rw [h1, h2, h3]
    rfl

/-! ## The labels: the safe label, the start index, the in-range test -/

section Labels
variable {T : IVec S4096 32}

/-- The label with the ignore value replaced by class 0, as the reference's select by the mask computes it. -/
theorem safe_apply (T : IVec S4096 32) (r : Fin 4096) : val_main_v4 (F := Ideal) T (ix1 r) = Cert.Nll.safeT T r := by
  rw [val_main_v4_apply, val_main_v3_apply, val_main_v2_apply, val_main_c_apply, val_main_call1_v1_apply,
    val_main_call1_v0_apply, val_main_c_0_apply]
  unfold Cert.Nll.safeT
  by_cases e : T (ix1 r) = 4294967196#32
  · rw [if_pos e, e]; rfl
  · rw [if_neg e]
    have hne : IntOp.cmpi .ne (T (ix1 r)) 4294967196#32 = 1#1 := by
      unfold IntOp.cmpi
      rw [show (T (ix1 r) != 4294967196#32) = true from bne_iff_ne.2 e]
      rfl
    rw [hne, select_one]

theorem safe_col_apply (T : IVec S4096 32) (r : Fin 4096) : val_main_v5 (F := Ideal) T (ix2 r (0 : Fin 1)) = Cert.Nll.safeT T r := by
  rw [val_main_v5_apply, show idx_main_v5 (ix2 r (0 : Fin 1)) = ix1 r from funext fun a => by match a with | ⟨0, _⟩ => rfl]
  exact safe_apply T r

/-- A safe label below 32000 is not negative as a signed word: the wrap-around select of take_along_axis keeps it. -/
theorem wrapped_apply {r : Fin 4096} (hs : (Cert.Nll.safeT T r).toNat < 32000) :
    val_main_call2_v4 (F := Ideal) T (ix2 r (0 : Fin 1)) = Cert.Nll.safeT T r := by
  rw [val_main_call2_v4_apply, val_main_call2_v1_apply, safe_col_apply, val_main_call2_v0_apply, val_main_call2_c_apply]
  have hlt : IntOp.cmpi .slt (Cert.Nll.safeT T r) 0#32 = 0#1 := eq_zero_of_ne_one fun e => by
    have h := (StableHlo.Predicate.slt_iff_toNat (by omega) (by decide)).1 e
    have h0 : (0#32 : BitVec 32).toNat = 0 := rfl
    rw [h0] at h
    exact absurd h (Nat.not_lt_zero _)
  rw [hlt, select_zero]

theorem start_apply {r : Fin 4096} (hs : (Cert.Nll.safeT T r).toNat < 32000) :
    val_main_call2_v5 (F := Ideal) T (ix3 r (0 : Fin 1) (0 : Fin 1)) = Cert.Nll.safeT T r := by
  rw [val_main_call2_v5_apply, show idx_main_call2_v5 (ix3 r (0 : Fin 1) (0 : Fin 1)) = ix2 r (0 : Fin 1) from funext fun a => by
    match a with
    | ⟨0, _⟩ => exact Fin.ext (by show ((r.val * 1 + 0) * 1 + 0) / 1 = r.val; omega)
    | ⟨1, _⟩ => rfl]
  exact wrapped_apply hs

/-- With every safe label below 32000 the in-range test 0 ≤ idx ≤ 31999 holds at every index. -/
theorem inrange_apply (hl : ∀ r : Fin 4096, (Cert.Nll.safeT T r).toNat < 32000) (i : S4096x1x1.Idx) :
    val_main_call2_v11 (F := Ideal) T i = 1#1 := by
  obtain ⟨r, b, c, rfl⟩ : ∃ (r : Fin 4096) (b c : Fin 1), i = ix3 r b c := ⟨i 0, i 1, i 2, eq_ix3 i⟩
  obtain rfl : b = 0 := Subsingleton.elim _ _
  obtain rfl : c = 0 := Subsingleton.elim _ _
  have hs := hl r
  rw [val_main_call2_v11_apply, val_main_call2_v7_apply, val_main_call2_v10_apply, start_apply hs, val_main_call2_v6_apply,
    val_main_call2_c_2_apply, val_main_call2_v9_apply, val_main_call2_v8_apply, val_main_call2_c_1_apply]
  have h7 : IntOp.cmpi .sge (Cert.Nll.safeT T r) 0#32 = 1#1 :=
    (StableHlo.Predicate.sge_iff_toNat (by omega) (by decide)).2 (by
      have h0 : (0#32 : BitVec 32).toNat = 0 := rfl
      rw [h0]; exact Nat.zero_le _)
  have h10 : IntOp.cmpi .sle (Cert.Nll.safeT T r) 31999#32 = 1#1 :=
    (StableHlo.Predicate.sle_iff_toNat (by omega) (by decide)).2 (by
      have h0 : (31999#32 : BitVec 32).toNat = 31999 := rfl
      rw [h0]; omega)
  rw [h7, h10]
  rfl

/-- So its and-reduction over the unit axis, from 1, is 1. -/
theorem allinrange_apply (hl : ∀ r : Fin 4096, (Cert.Nll.safeT T r).toNat < 32000) (j : S4096x1.Idx) :
    val_main_call2_v12 (F := Ideal) T j = 1#1 := by
  unfold val_main_call2_v12
  rw [Host.reduce_eq_foldl]
  have key : ∀ (l : List S4096x1x1.Idx) (b : BitVec 1), b = 1#1 →
      l.foldl (fun acc i => IntOp.andi acc (val_main_call2_v11 (F := Ideal) T i)) b = 1#1 := by
    intro l
    induction l with
    | nil => intro b hb; exact hb
    | cons a l ih =>
      intro b hb
      rw [List.foldl_cons]
      exact ih _ (by rw [hb, inrange_apply hl a]; rfl)
  exact key _ _ rfl

end Labels

/-! ## The logits, their shift and the picked entry -/

section Rows
variable {A : FVec Ideal S4096x4096 .f32} {W : FVec Ideal S32000x4096 .f32} {T : IVec S4096 32}

/-- The dot_general at (r, v) is the inner product of activation row r with weight row v. -/
theorem logit_apply (A : FVec Ideal S4096x4096 .f32) (W : FVec Ideal S32000x4096 .f32) (r : Fin 4096) (v : Fin 32000) :
    val_main_v0 (F := Ideal) A W (ix2 r v) = Cert.Nll.logit A W r v := by
  rw [val_main_v0_apply]
  unfold Cert.Nll.logit
  refine Finset.sum_congr rfl fun k _ => ?_
  rw [show lidx_main_v0 (ix2 r v) k = ix2 r k from funext fun a => Fin.ext (by match a with | ⟨0, _⟩ => rfl | ⟨1, _⟩ => rfl),
    show ridx_main_v0 (ix2 r v) k = ix2 v k from funext fun a => Fin.ext (by match a with | ⟨0, _⟩ => rfl | ⟨1, _⟩ => rfl)]

/-- The shift broadcast along a row is the row's one value. -/
theorem shift_apply (A : FVec Ideal S4096x4096 .f32) (W : FVec Ideal S32000x4096 .f32) (r : Fin 4096) (v : Fin 32000) :
    val_main_call0_v4 (F := Ideal) A W (ix2 r v) = val_main_call0_v2 (F := Ideal) A W (ix1 r) := by
  rw [val_main_call0_v4_apply, val_main_call0_v3_apply]
  exact congrArg _ (funext fun a => by match a with | ⟨0, _⟩ => rfl)

/-- The -∞ pattern is the bottom of the extended reals. -/
theorem ofBits_neg_inf : Ideal.ofBits .f32 0xFF800000#32 = (⊥ : EReal) := by simp [Ideal.ofBits, Ideal.ieee]

/-- On the domain the shift — the maximum of the row's logits, taken from -∞ and joined with -∞ — is a real number. -/
theorem shift_real (h : Cert.Nll.Dom A W T) (r : Fin 4096) : ∃ μ : ℝ, val_main_call0_v2 (F := Ideal) A W (ix1 r) = μ := by
  have hR : S4096x32000.Reduces [1] S4096 := by decide
  have hlift : ∀ q : Fin 32000, hR.lift (ix1 r) q = ix2 r q := fun q => funext fun a => Fin.ext (by
    match a with
    | ⟨0, _⟩ => rfl
    | ⟨1, _⟩ => rfl)
  obtain ⟨μ, hμ⟩ := Cert.LogSumExp.exists_real_fold_max (Finset.univ : Finset (Fin 32000)) ⟨⟨0, by decide⟩, Finset.mem_univ _⟩
    (fun q => Cert.Nll.logit A W r q) (fun q _ => ⟨_, Cert.Nll.logit_eq h r q⟩)
  refine ⟨μ, ?_⟩
  rw [← hμ, val_main_call0_v2_apply, val_main_call0_v1_apply, val_main_call0_cst_0_apply]
  unfold val_main_call0_v0
  rw [Host.reduce_eq_fold_single _ _ _ _ hR]
  have e1 : (val_main_v0 (F := Ideal) A W ∘ hR.lift (ix1 r)) = fun q : Fin 32000 => Cert.Nll.logit A W r q :=
    funext fun q => (congrArg (val_main_v0 (F := Ideal) A W) (hlift q)).trans (logit_apply A W r q)
  rw [e1]
  show max (Ideal.ofBits .f32 0xFF800000#32) (Finset.univ.fold max (Ideal.ofBits .f32 0xFF800000#32) fun q : Fin 32000 => Cert.Nll.logit A W r q) = _
  rw [ofBits_neg_inf, max_eq_right bot_le]

/-- The float sum of the row's shifted exponentials. -/
theorem sumexp_apply (A : FVec Ideal S4096x4096 .f32) (W : FVec Ideal S32000x4096 .f32) (r : Fin 4096) :
    val_main_call0_v7 (F := Ideal) A W (ix1 r)
      = 0 + ∑ v : Fin 32000, Ideal.exp (Cert.Nll.logit A W r v - val_main_call0_v2 (F := Ideal) A W (ix1 r)) := by
  rw [val_main_call0_v7_apply]
  refine congrArg₂ (· + ·) Ideal.ofBits_zero_f32 (Finset.sum_congr rfl fun v _ => ?_)
  ·
    rw [show idx_main_call0_v7 (ix1 r) v = ix2 r v from funext fun a => by match a with | ⟨0, _⟩ => rfl | ⟨1, _⟩ => rfl,
      val_main_call0_v6_apply, val_main_call0_v5_apply, logit_apply, shift_apply]
    rfl

/-- The entry take_along_axis picks in row r: the log-softmax at the row's column. -/
theorem picked_apply (hl : ∀ r : Fin 4096, Cert.Nll.col T r < 32000) (r : Fin 4096) :
    val_main_v6 (F := Ideal) A W T (ix2 r (0 : Fin 1)) = val_main_v1 (F := Ideal) A W (ix2 r ⟨Cert.Nll.col T r, hl r⟩) := by
  have hs : (Cert.Nll.safeT T r).toNat < 32000 := hl r
  rw [val_main_v6_apply, allinrange_apply (fun r => hl r), select_one]
  unfold val_main_call2_v13
  rw [gather_apply]
  refine congrArg (fun c => val_main_v1 (F := Ideal) A W (ix2 r c)) (Fin.ext ?_)
  show min (val_main_call2_v5 (F := Ideal) T (ix3 r (0 : Fin 1) (0 : Fin 1))).toInt.toNat 31999 = (Cert.Nll.safeT T r).toNat
  rw [start_apply hs, StableHlo.Predicate.toInt_eq_toNat_of_lt (by omega), Int.toNat_natCast]
  exact Nat.min_eq_left (by omega)

end Rows

/-- On the domain the reference's per-row value is the row's negative log-likelihood. -/
theorem refNll_eq {A : FVec Ideal S4096x4096 .f32} {W : FVec Ideal S32000x4096 .f32} {T : IVec S4096 32} (h : Cert.Nll.Dom A W T) (r : Fin 4096) :
    refNll A W T (ix1 r) = Cert.Nll.rowNll A W T r := by
  have hl : ∀ r : Fin 4096, Cert.Nll.col T r < 32000 := fun r => Cert.Nll.col_lt h r
  unfold refNll
  rw [val_main_v8_apply, val_main_v7_apply,
    show idx_main_v7 (ix1 r) = ix2 r (0 : Fin 1) from funext fun a => by
      match a with
      | ⟨0, _⟩ => exact Fin.ext (Nat.div_one _)
      | ⟨1, _⟩ => rfl,
    picked_apply hl, val_main_v1_apply, val_main_call0_v5_apply, logit_apply, shift_apply, val_main_call0_v10_apply,
    val_main_call0_v9_apply, val_main_call0_v8_apply,
    show idx_main_call0_v8 (idx_main_call0_v10 (ix2 r (⟨Cert.Nll.col T r, hl r⟩ : Fin 32000))) = ix1 r from funext fun a => by
      match a with
      | ⟨0, _⟩ => rfl,
    sumexp_apply]
  unfold Cert.Nll.rowNll
  simp only [Ideal.hostNegf_def, Ideal.negf_def, Ideal.subf_def, Ideal.hostUnary_log_def]
  exact Cert.LogSumExp.shifted_result (Cert.Nll.xr A W r) (hl r) (val_main_call0_v2 (F := Ideal) A W (ix1 r)) (shift_real h r)
    (fun v => Cert.Nll.logit A W r v) (fun v => Cert.Nll.logit_eq h r v)

end Cert.ReferenceIdeal.RefValue

end
-- ==== Proof.PreDom.lean ====
/-
  The printed precondition, decoded.

  The precondition is the one-bit scalar
      all (|A| < +∞)  and  all (|W| < +∞)  and  all (T = -100  or  (0 ≤ T  and  T < 32000)),
  each "all" a reduction by "and" over the whole array. When the scalar is the set bit, each of the three reductions is set, so
  each mask is set at every index. For an extended real x, |x| < +∞ fails at both infinities and holds at every real number;
  hence every activation and weight is a real number. For a 32-bit label read as a signed integer, 0 ≤ t < 32000 says that the
  unsigned value is below 32000, and -100 is the word 4294967196.
-/
import proofs.«400565_j4887672783290_2_alg».proof.Pre_finite_inputs
import proofs.«400565_j4887672783290_2_alg».proof.Proof.Gen.Pre_finite_inputs
import proofs.«400565_j4887672783290_2_alg».proof.Proof.Nll
import Idealize.ShloMosaic.Lib.ReduceAll
import Idealize.ShloMosaic.Lib.ValueIdx
import Idealize.ShloMosaic.Lib.StableHlo.Predicate
import Idealize.ShloMosaic.PureOps.Ideal.Laws

noncomputable section

namespace Cert.PreDom

open Idealize.ShloMosaic

/-- The single-precision bit pattern with all exponent bits set and no fraction bit denotes +∞. -/
theorem ofBits_inf : Ideal.ofBits .f32 0x7F800000#32 = (⊤ : EReal) := by
  simp [Ideal.ofBits, Ideal.ieee]

/-- An extended real whose absolute value (the larger of x and -x) lies strictly below +∞ is a real number: at +∞ the larger
    of the two is +∞ itself, and at -∞ it is -(-∞) = +∞ again, so the comparison fails at both. -/
theorem real_of_abs_lt_top (x : Ideal .f32)
    (h : FloatOps.cmpf (F := Ideal) .olt (FloatOps.absf x) (FloatOps.ofBits .f32 0x7F800000#32) = 1#1) : ∃ a : ℝ, x = (a : EReal) := by
  rw [Ideal.cmpf_def, Ideal.absf_def, Ideal.ofBits_def, ofBits_inf] at h
  unfold Ideal.cmp at h
  rw [StableHlo.Predicate.ofBool_eq_one_iff] at h
  simp only [decide_eq_true_eq] at h
  induction x using EReal.rec with
  | bot => simp at h
  | top => simp at h
  | coe r => exact ⟨r, rfl⟩

/-- A 32-bit word that is the word of -100, or that read signed lies in [0, 32000), is that word or has unsigned value
    below 32000: a signed value that is not negative is the unsigned value. -/
theorem label_of_mask (t : BitVec 32)
    (h : IntOp.ori (IntOp.cmpi .eq t 4294967196#32) (IntOp.andi (IntOp.cmpi .sge t 0#32) (IntOp.cmpi .slt t 32000#32)) = 1#1) :
    t = 4294967196#32 ∨ t.toNat < 32000 := by
  rcases IntOp.ori_eq_one.1 h with e | e
  · exact Or.inl (StableHlo.Predicate.cmpi_eq_iff.1 e)
  · refine Or.inr ?_
    obtain ⟨hge, hlt⟩ := IntOp.andi_eq_one.1 e
    have z0 : (0#32 : BitVec 32).toInt = 0 := by decide
    have z1 : (32000#32 : BitVec 32).toInt = 32000 := by decide
    simp only [IntOp.cmpi, StableHlo.Predicate.ofBool_eq_one_iff, BitVec.sle, BitVec.slt, decide_eq_true_eq, z0, z1] at hge hlt
    rw [BitVec.toInt_eq_toNat_cond] at hge hlt
    split at hge <;> omega

/-- A shape of rank 0 has exactly one index. -/
instance : Subsingleton Cert.Pre_finite_inputs.S_.Idx := ⟨fun _ _ => funext fun d => d.elim0⟩

theorem dom_of_pre [Cert.Pre_finite_inputs.Facts] (A : FVec Ideal Cert.Pre_finite_inputs.S4096x4096 .f32) (W : FVec Ideal Cert.Pre_finite_inputs.S32000x4096 .f32) (T : IVec Cert.Pre_finite_inputs.S4096 32)
    (h : Cert.Pre_finite_inputs.fn (F := Ideal) A W T = fun _ => 1#1) : Cert.Nll.Dom A W T := by
  have h0 := congrFun h ValueIdx.ix0
  dsimp only [Cert.Pre_finite_inputs.fn, Cert.Pre_finite_inputs.fn_part1] at h0
  -- the scalar is (all-A and all-W) and all-T
  obtain ⟨hAW, hT⟩ := IntOp.andi_eq_one.1 h0
  obtain ⟨hA, hW⟩ := IntOp.andi_eq_one.1 hAW
  have mA := Host.reduce_andi_all _ _ _ _ _ hA
  have mW := Host.reduce_andi_all _ _ _ _ _ hW
  have mT := Host.reduce_andi_all _ _ _ _ _ hT
  exact ⟨fun i => real_of_abs_lt_top (A i) (mA i), fun i => real_of_abs_lt_top (W i) (mW i),
    fun r => label_of_mask (T (ValueIdx.ix1 r)) (mT (ValueIdx.ix1 r))⟩

end Cert.PreDom

end
-- ==== Proof.lean ====
/-
  A fused projection-and-cross-entropy kernel against its jnp reference, over the extended reals.

  Both programs compute, from activations `A` [4096, 4096], class weights `W` [32000, 4096] and labels `T` [4096], the mean
  over the rows whose label is not the ignore value -100 of the row's negative log-likelihood
      log (∑ v, exp (logit r v)) - logit r (label r),        logit r v = ∑ h, A (r, h) * W (v, h).
  The reference takes a stable log-softmax of the whole logits matrix (shifting each row by its maximum) and gathers the
  label's column. The kernel never forms the matrix: it streams the 32000 classes in 25 blocks of 1280 per tile of 1024
  rows, carrying a running shift (started from a large negative finite number), the running sum of the exponentials
  relative to the shift, and the logit at the label's column, and emits shift + log sum - picked at a tile's last block.
  The two agree because the shift cancels whatever real number it is (Proof/LogSumExp.lean): inputs being finite, every
  logit is a real number; labels being -100 or a class below 32000, the picked column exists in both programs (an ignored
  row picks class 0 in both and is masked out of the mean by the same mask). The mean itself is the same chain of host
  operations in both programs and is never opened.

  Proof/Nll.lean states the per-row value; Proof/KPieces.lean, KRows.lean, KBlocks.lean, KCarried.lean and KFinal.lean
  read the kernel's output array as that value (the cases of the body, one block at one row, the windows' blocks, the
  induction over the grid, the blocks covering the array); Proof/KTail.lean and Proof/RefValue.lean name the two runs'
  results; Proof/PreDom.lean decodes the precondition.
-/
import proofs.«400565_j4887672783290_2_alg».proof.Defs
import proofs.«400565_j4887672783290_2_alg».proof.Proof.Gen.Kernel
import proofs.«400565_j4887672783290_2_alg».proof.Proof.Gen.Kernel.Frame
import proofs.«400565_j4887672783290_2_alg».proof.Proof.Gen.KernelIdeal
import proofs.«400565_j4887672783290_2_alg».proof.Proof.Gen.KernelIdeal.Frame
import proofs.«400565_j4887672783290_2_alg».proof.Proof.Gen.ReferenceIdeal
import proofs.«400565_j4887672783290_2_alg».proof.Proof.Gen.Pre_finite_inputs
import proofs.«400565_j4887672783290_2_alg».proof.Proof.KFinal
import proofs.«400565_j4887672783290_2_alg».proof.Proof.KTail
import proofs.«400565_j4887672783290_2_alg».proof.Proof.RefValue
import proofs.«400565_j4887672783290_2_alg».proof.Proof.PreDom
import Idealize.ShloMosaic.Adequacy
import Idealize.ShloMosaic.Init

noncomputable section

namespace Cert.Proof

open Idealize.ShloMosaic Idealize.SL.Sem Idealize.ShloMosaic.ValueIdx

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- On the domain the kernel's output column, read as a vector, is the reference's vector of per-row values: both are
    the row's log-sum-exp less its picked logit. -/
theorem rows_eq (m : (ℓ : Loc Cert.KernelIdeal.nD Cert.KernelIdeal.τ Cert.KernelIdeal.sig) → Buf (Elt Ideal) ℓ)
    (c : Dev Cert.KernelIdeal.nD)
    (h : Cert.Nll.Dom (Cert.KernelIdeal.Online.argA m c) (Cert.KernelIdeal.Online.argW m c) (Cert.KernelIdeal.Online.argT m c)) :
    Cert.ReferenceIdeal.RefValue.refNll (Cert.KernelIdeal.Online.argA m c) (Cert.KernelIdeal.Online.argW m c)
        (Cert.KernelIdeal.Online.argT m c)
      = Cert.KernelIdeal.Tail.outVec m c := by
  funext i
  obtain ⟨r, rfl⟩ : ∃ r : Fin 4096, i = ix1 r := ⟨i 0, eq_ix1 i⟩
  rw [Cert.ReferenceIdeal.RefValue.refNll_eq h r]
  unfold Cert.KernelIdeal.Tail.outVec
  rw [Cert.KernelIdeal.Online.final m c h]

/-- At the ideal values the two programs, run from memories that agree on the arguments, end with the same mean. -/
theorem algebraic : Cert.algebraic_KernelIdeal_ReferenceIdeal := by
  intro m ρ m' ρ' hpre hagree
  have hd : ∀ c, Cert.Nll.Dom (Cert.KernelIdeal.Online.argA m c) (Cert.KernelIdeal.Online.argW m c)
      (Cert.KernelIdeal.Online.argT m c) := fun c => Cert.PreDom.dom_of_pre _ _ _ (hpre c)
  refine ⟨fun c => Cert.KernelIdeal.Tail.tail (Cert.KernelIdeal.Online.argT m c) (Cert.KernelIdeal.Tail.outVec m c),
    Cert.KernelIdeal.Tail.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  exact congrArg (Cert.KernelIdeal.Tail.tail (Cert.KernelIdeal.Online.argT m c)) (rows_eq m c (hd c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
